-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S4096x128 : Shape := ⟨2, ![4096, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : IVec S16384 32) (main_arg2 : FVec F S4096x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 4096#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S16384 : Shape := ⟨1, ![16384]⟩
abbrev S4096x128 : Shape := ⟨2, ![4096, 128]⟩
abbrev S16384x1 : Shape := ⟨2, ![16384, 1]⟩
abbrev S_ : Shape := ⟨0, ![]⟩
abbrev S4096 : Shape := ⟨1, ![4096]⟩
abbrev S1x4096 : Shape := ⟨2, ![1, 4096]⟩
abbrev S2x1x1 : Shape := ⟨3, ![2, 1, 1]⟩
abbrev S256x128 : Shape := ⟨2, ![256, 128]⟩
abbrev S256x1 : Shape := ⟨2, ![256, 1]⟩
abbrev S1x1x1 : Shape := ⟨3, ![1, 1, 1]⟩
abbrev S1x1 : Shape := ⟨2, ![1, 1]⟩
abbrev S256 : Shape := ⟨1, ![256]⟩
abbrev S256x4096 : Shape := ⟨2, ![256, 4096]⟩
abbrev S1 : Shape := ⟨1, ![1]⟩
abbrev S128 : Shape := ⟨1, ![128]⟩

abbrev nBuf : Space → Nat
  | .hbm => 41
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S4096x128, .f32⟩
  | .hbm, ⟨3, _⟩ => ⟨S16384x1, .i32⟩
  | .hbm, ⟨4, _⟩ => ⟨S4096x128, .f32⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S4096x128, .bf16⟩
  | .hbm, ⟨9, _⟩ => ⟨S2x1x1, .f32⟩
  | .hbm, ⟨10, _⟩ => ⟨S_, .f32⟩
  | .hbm, ⟨11, _⟩ => ⟨S_, .f32⟩
  | .hbm, ⟨12, _⟩ => ⟨S16384x128, .f32⟩
  | .hbm, ⟨13, _⟩ => ⟨S_, .f32⟩
  | .hbm, ⟨14, _⟩ => ⟨S_, .f32⟩
  | .hbm, ⟨15, _⟩ => ⟨S4096x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S4096x128, .bf16⟩
  | .local _ .vmem, ⟨3, _⟩ => ⟨S1x4096, .f32⟩
  | .local _ .vmem, ⟨4, _⟩ => ⟨S256x1, .i32⟩
  | .local _ .vmem, ⟨5, _⟩ => ⟨S256x1, .i32⟩
  | .local _ .vmem, ⟨6, _⟩ => ⟨S1x1x1, .f32⟩
  | .local _ .vmem, ⟨7, _⟩ => ⟨S1x1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev main_cst_8 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_9 : Ref sig .tc := ⟨.hbm, 34, rfl⟩
abbrev main_v21 : Ref sig .tc := ⟨.hbm, 35, rfl⟩
abbrev main_cst_10 : Ref sig .tc := ⟨.hbm, 36, rfl⟩
abbrev main_v22 : Ref sig .tc := ⟨.hbm, 37, rfl⟩
abbrev main_v23 : Ref sig .tc := ⟨.hbm, 38, rfl⟩
abbrev main_cst_11 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  reducesTo_S4096x128_S4096_d1 : S4096x128.ReducesTo [1] S4096
  h_S_ : 0 < S_.numel
  bcast_S4096_S1x4096_1 : S4096.BroadcastsInDim S1x4096 (![1] : Fin 1 → Fin S1x4096.rank)
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x128_S256 : S256x128.Reduces [1] S256
  shapeCasts_S256_S256x1 : S256.ShapeCasts S256x1
  iota_S256x4096_d1_w32 : S256x4096.Iotas .tc 32 [1]
  broadcasts_S256x1_S256x4096 : S256x1.Broadcasts S256x4096
  reduces_S256x1_S1 : S256x1.Reduces [0] S1
  shapeCasts_S1_S1x1 : S1.ShapeCasts S1x1
  reduces_S256x4096_S4096 : S256x4096.Reduces [0] S4096
  shapeCasts_S4096_S1x4096 : S4096.ShapeCasts S1x4096
  reduces_S1x4096_S1 : S1x4096.Reduces [1] S1
  reducesTo_S2x1x1_S_d0_1_2 : S2x1x1.ReducesTo [0, 1, 2] S_
  reducesTo_S16384x128_S_d0_1 : S16384x128.ReducesTo [0, 1] S_
  reducesTo_S4096x128_S_d0_1 : S4096x128.ReducesTo [0, 1] S_
  reducesTo_S16384x128_S128_d0 : S16384x128.ReducesTo [0] S128
  reducesTo_S4096x128_S128_d0 : S4096x128.ReducesTo [0] S128
  reducesTo_S128_S_d0 : S128.ReducesTo [0] S_
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .i32 = 32 ∨ (Rect.block (s := S16384x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384 : Shape := ⟨1, ![16384]⟩
abbrev S4096x128 : Shape := ⟨2, ![4096, 128]⟩
abbrev S_ : Shape := ⟨0, ![]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S4096x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x128, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_cst_6 : Ref sig .tc := ⟨.hbm, 52, rfl⟩
abbrev main_v21 : Ref sig .tc := ⟨.hbm, 53, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S4096x128_S4096_d1 : S4096x128.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  reducesTo_S16384x4096_S_d0_1 : S16384x4096.ReducesTo [0, 1] S_
  dot_S16384x128_S4096x128_S16384x4096_1_1_0_0_n_n_wf : DotDims.WF S16384x128 S4096x128 S16384x4096 [1] [1] [0] [0] [] []
  gather_S16384x4096_S16384x1x1_S16384x1_n_1_0_0_1_2_11_wf : GatherDims.WF S16384x4096 S16384x1x1 S16384x1 [] [1] [0] [1] [0] 2 ![1, 1]

variable [Facts₀]

def dot_S16384x128_S4096x128_S16384x4096_1_1_0_0_n_n : DotDims S16384x128 S4096x128 S16384x4096 where
  lhsContracting := [1]
  rhsContracting := [1]
  lhsNonContracting := [0]
  rhsNonContracting := [0]
  lhsBatch := []
  rhsBatch := []
  wf := dot_S16384x128_S4096x128_S16384x4096_1_1_0_0_n_n_wf
def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

class Facts : Prop extends Facts₀ where

variable [Facts]
-- ==== Proof.FiniteInputs.lean ====
import proofs.«419607_j26620207301028_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine
import Mathlib.Data.EReal.Basic

/-!
  The precondition read back.  The precondition is a conjunction of three "for all entries" tests:
  every entry of the first float array has absolute value below +∞, every entry of the second float
  array likewise, and every label lies in [0, 4096) as a signed 32-bit word.  When the conjunction
  is true, the two float arrays consist of real numbers and every label is the word of a natural
  number below 4096.
-/

namespace Cert.Pre_finite_inputs.Decode

open Cert.Pre_finite_inputs Idealize.ShloMosaic Idealize.ShloMosaic.ValueIdx

/-- The shape with no axes has exactly one index. -/
instance : Subsingleton S_.Idx := ⟨fun a b => funext fun d => d.elim0⟩

/-- A truth value whose one-bit word is 1 is true. -/
theorem bool_of_bit (b : Bool) (h : BitVec.ofBool b = 1#1) : b = true := by
  cases b
  · exact absurd h (by decide)
  · rfl

/-- The 32-bit pattern with all exponent bits set and zero fraction is +∞. -/
theorem inf_word : Ideal.ofBits .f32 0x7F800000#32 = (⊤ : EReal) := by
  simp [Ideal.ofBits, Ideal.ieee]

/-- The conjunction splits: each of the three "for all" tests holds at every index.  At an index the
    float test says max(x, −x) < +∞ and the label test says 0 ≤ a and a < 4096, both signed. -/
theorem split_pre [Facts] (feat : FVec Ideal S16384x128 .f32) (label : IVec S16384 32)
    (centers : FVec Ideal S4096x128 .f32)
    (h : fn (F := Ideal) feat label centers = fun _ => 1#1) :
    (∀ i : S16384x128.Idx,
        Ideal.cmp .olt (max (feat i) (-(feat i))) (Ideal.ofBits .f32 0x7F800000#32) = 1#1)
    ∧ (∀ i : S4096x128.Idx,
        Ideal.cmp .olt (max (centers i) (-(centers i))) (Ideal.ofBits .f32 0x7F800000#32) = 1#1)
    ∧ (∀ i : S16384.Idx,
        IntOp.andi (IntOp.cmpi .sge (label i) 0#32) (IntOp.cmpi .slt (label i) 4096#32) = 1#1) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact Host.reduce_andi_all _ _ _ _ _ h1 i
  · exact Host.reduce_andi_all _ _ _ _ _ h2 i
  · exact Host.reduce_andi_all _ _ _ _ _ h3 i

/-- An extended real whose absolute value max(x, −x) is strictly below +∞ is neither +∞ nor −∞,
    hence it is the real number it reads as. -/
theorem real_of_abs_lt (x : EReal)
    (h : Ideal.cmp .olt (max x (-x)) (Ideal.ofBits .f32 0x7F800000#32) = 1#1) :
    x = ((EReal.toReal x : ℝ) : EReal) := by
  rw [inf_word] at h
  have hlt : max x (-x) < ⊤ := of_decide_eq_true (bool_of_bit _ h)
  have h1 : x ≠ ⊤ := by
    rintro rfl
    simp at hlt
  have h2 : x ≠ ⊥ := by
    rintro rfl
    simp at hlt
  exact (EReal.coe_toReal h1 h2).symm

/-- A 32-bit word that is at least 0 and below 4096 as a signed number has unsigned value below 4096. -/
theorem label_of_range (a : BitVec 32)
    (h : IntOp.andi (IntOp.cmpi .sge a 0#32) (IntOp.cmpi .slt a 4096#32) = 1#1) :
    a.toNat < 4096 := by
  obtain ⟨h1, h2⟩ := IntOp.andi_eq_one.1 h
  rw [IntOp.cmpi_sge] at h1
  rw [IntOp.cmpi_slt] at h2
  have e0 : (0#32 : BitVec 32).toInt = 0 := by decide
  have e1 : (4096#32 : BitVec 32).toInt = 4096 := by decide
  rw [e0] at h1
  rw [e1] at h2
  rw [BitVec.toInt_eq_toNat_cond] at h1 h2
  have := a.isLt
  split at h1 <;> omega

/-- A 32-bit word is the word of its own unsigned value. -/
theorem word_of_toNat (a : BitVec 32) : a = BitVec.ofNat 32 a.toNat := by
  apply BitVec.eq_of_toNat_eq
  rw [BitVec.toNat_ofNat]
  exact (Nat.mod_eq_of_lt a.isLt).symm

/-- When the precondition holds, the two float arrays are arrays of reals and the labels are
    natural numbers below 4096. -/
theorem reals_of_pre [Facts] (feat : FVec Ideal S16384x128 .f32) (label : IVec S16384 32) (centers : FVec Ideal S4096x128 .f32)
    (h : fn (F := Ideal) feat label centers = fun _ => 1#1) :
    ∃ (fr : Fin 16384 → Fin 128 → ℝ) (cr : Fin 4096 → Fin 128 → ℝ) (lb : Fin 16384 → Fin 4096),
      (∀ (b : Fin 16384) (d : Fin 128), feat (ix2 b d) = ((fr b d : ℝ) : EReal))
      ∧ (∀ (k : Fin 4096) (d : Fin 128), centers (ix2 k d) = ((cr k d : ℝ) : EReal))
      ∧ (∀ b : Fin 16384, label (ix1 b) = BitVec.ofNat 32 (lb b).val) := by
  obtain ⟨hf, hc, hl⟩ := split_pre feat label centers h
  refine ⟨fun b d => EReal.toReal (feat (ix2 b d)), fun k d => EReal.toReal (centers (ix2 k d)),
    fun b => ⟨(label (ix1 b)).toNat, label_of_range _ (hl (ix1 b))⟩,
    fun b d => ?_, fun k d => ?_, fun b => ?_⟩
  · exact real_of_abs_lt _ (hf (ix2 b d))
  · exact real_of_abs_lt _ (hc (ix2 k d))
  · exact word_of_toNat _

end Cert.Pre_finite_inputs.Decode
-- ==== Proof.Cases.lean ====
/-
  What one run of the kernel body leaves in the output's one-word staging buffer, in its two control cases: the
  payload `prev + (s − 2·x)`, where `x` is the block's sum of inner products ⟨f_r, c_(label r)⟩ and `s` the block's
  sum of squared lengths ‖f_r‖² + ‖c_(label r)‖², over the previous value `prev` — the stored zero at a core's first
  grid point (the body resets, then reads the reset back), what the point before left otherwise.
-/
import proofs.«419607_j26620207301028_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0, 0] : Fin 3 → Nat) = fun _ => 0 := funext fun a => by fin_cases a <;> rfl

theorem hz2 : (![0, 0] : Fin 2 → Nat) = fun _ => 0 := funext fun a => by fin_cases a <;> rfl

/-- Off the first point of a core: the body leaves, over the running value `xo`, the payload
    `xo + (s − 2·x)` of the block's two partial sums `x` (cross terms) and `s` (squared lengths). -/
theorem out_B (c : Dev nD) (i : grid0.Coords) (a2 : Memref sig .tc .vmem S256x128 .f32) (h2 : a2.IsWhole)
    (a3 : Memref sig .tc .vmem S4096x128 .bf16) (h3 : a3.IsWhole) (a4 : Memref sig .tc .vmem S1x4096 .f32) (h4 : a4.IsWhole)
    (a5 : Memref sig .tc .vmem S256x1 .i32) (h5 : a5.IsWhole) (a6 : Memref sig .tc .vmem S1x1x1 .f32) (h6 : a6.IsWhole)
    (hc : ¬cond0_0 i) (x0 : Vec F S256x128 .f32) (x1 : Vec F S4096x128 .bf16) (x2 : Vec F S1x4096 .f32)
    (x3 : Vec F S256x1 .i32) (xo : Vec F S1x1x1 .f32) :
    out0_B_4 c i a2 h2 a3 h3 a4 h4 a5 h5 a6 h6 hc x0 x1 x2 x3 xo = k0_pay1 (k0_pay4 x0 x1 x3) (k0_pay5 x0 x3 x2) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S256x128) hz2, View.ld_unit_zero (S := S4096x128) hz2, View.ld_unit_zero (S := S1x4096) hz2,
    View.ld_unit_zero (S := S256x1) hz2, View.ld_unit_zero (S := S1x1x1) hz]

/-- At the first point of a core: the body first stores the zero, reads it back, and leaves the same payload over it. -/
theorem out_A (c : Dev nD) (i : grid0.Coords) (a2 : Memref sig .tc .vmem S256x128 .f32) (h2 : a2.IsWhole)
    (a3 : Memref sig .tc .vmem S4096x128 .bf16) (h3 : a3.IsWhole) (a4 : Memref sig .tc .vmem S1x4096 .f32) (h4 : a4.IsWhole)
    (a5 : Memref sig .tc .vmem S256x1 .i32) (h5 : a5.IsWhole) (a6 : Memref sig .tc .vmem S1x1x1 .f32) (h6 : a6.IsWhole)
    (hc : cond0_0 i) (x0 : Vec F S256x128 .f32) (x1 : Vec F S4096x128 .bf16) (x2 : Vec F S1x4096 .f32)
    (x3 : Vec F S256x1 .i32) :
    out0_A_4 c i a2 h2 a3 h3 a4 h4 a5 h5 a6 h6 hc x0 x1 x2 x3 = k0_pay1 (k0_pay4 x0 x1 x3) (k0_pay5 x0 x3 x2) k0_pay2 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1x1) hz, View.readCov_unit_zero (S := S1x1x1) _ hz]
  simp only [View.readAt_eq_ld, h2.read_unread, h3.read_unread, h4.read_unread, h5.read_unread,
    View.ld_unit_zero (S := S256x128) hz2, View.ld_unit_zero (S := S4096x128) hz2, View.ld_unit_zero (S := S1x4096) hz2,
    View.ld_unit_zero (S := S256x1) hz2]

end Cert.KernelIdeal.Cases

end
-- ==== Proof.Accum.lean ====
/-
  The output word after each grid point is a running sum. The body adds one block's value `g t` to what the point
  before left, and starts again from the stored zero at the first point of each core (the points ≡ 0 mod 32). So after
  point `n` the word holds `g (n − n mod 32) + … + g n`: the sum of the blocks of `n`'s core up to `n`. By induction
  on the point, never by enumerating the grid.
-/
import proofs.«419607_j26620207301028_3_alg».proof.Proof.Cases
import Idealize.ShloMosaic.Lib.ValueIdx

noncomputable section

open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ) (c : Dev nD)

/-- The one index of the one-word output block. -/
abbrev o : S1x1x1.Idx := ix3 (0 : Fin 1) (0 : Fin 1) (0 : Fin 1)

/-- The body at point `t` as a function of the word it finds: the payload over the point's four input blocks. -/
abbrev step (t : Fin cfg0.N) (prev : Vec Ideal S1x1x1 .f32) : Vec Ideal S1x1x1 .f32 :=
  k0_pay1 (k0_pay4 (iblk m c 0 t) (iblk m c 1 t) (iblk m c 3 t)) (k0_pay5 (iblk m c 0 t) (iblk m c 3 t) (iblk m c 2 t)) prev

/-- The blocks of `n`'s core up to `n`, summed. -/
def partialSum (g : ℕ → ℝ) (n : ℕ) : ℝ := ∑ j ∈ Finset.range (n % 32 + 1), g (n - n % 32 + j)

theorem partialSum_first (g : ℕ → ℝ) (n : ℕ) (h : n % 32 = 0) : partialSum g n = g n := by
  unfold partialSum
  rw [h]
  simp

theorem partialSum_succ (g : ℕ → ℝ) (n : ℕ) (h : ¬(n + 1) % 32 = 0) : partialSum g (n + 1) = partialSum g n + g (n + 1) := by
  have e1 : (n + 1) % 32 = n % 32 + 1 := by omega
  have e2 : n + 1 - (n % 32 + 1) = n - n % 32 := by omega
  have e3 : n - n % 32 + (n % 32 + 1) = n + 1 := by omega
  unfold partialSum
  rw [e1, e2, Finset.sum_range_succ, e3]

/-- After point `n` the output word is the running sum of `n`'s core, given what one step does (`hstep`: it adds the
    block's value to a finite word) and that the reset stores the zero. -/
theorem outsAt_eq (g : ℕ → ℝ)
    (hstep : ∀ (t : Fin cfg0.N) (p : ℝ) (prev : Vec Ideal S1x1x1 .f32), prev o = ((p : ℝ) : EReal) →
      step m c t prev o = ((p + g t.val : ℝ) : EReal))
    (hreset : k0_pay2 (F := Ideal) o = ((0 : ℝ) : EReal)) :
    ∀ (n : ℕ) (hn : n < cfg0.N), outsAt0 m c n hn o = ((partialSum g n : ℝ) : EReal)
  | 0, hn => by
    have hA := outsAt0_A m c ⟨0, hn⟩ rfl
    refine (congrFun hA o).trans ?_
    refine (congrFun (Cases.out_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr rfl)
      (iblk m c 0 ⟨0, hn⟩) (iblk m c 1 ⟨0, hn⟩) (iblk m c 2 ⟨0, hn⟩) (iblk m c 3 ⟨0, hn⟩)) o).trans ?_
    refine (hstep ⟨0, hn⟩ 0 (k0_pay2 (F := Ideal)) hreset).trans ?_
    rw [partialSum_first g 0 rfl, zero_add]
  | n + 1, hn => by
    by_cases h0 : (n + 1) % 32 = 0
    · have hA := outsAt0_A m c ⟨n + 1, hn⟩ h0
      refine (congrFun hA o).trans ?_
      refine (congrFun (Cases.out_A (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0)
        (iblk m c 0 ⟨n + 1, hn⟩) (iblk m c 1 ⟨n + 1, hn⟩) (iblk m c 2 ⟨n + 1, hn⟩) (iblk m c 3 ⟨n + 1, hn⟩)) o).trans ?_
      refine (hstep ⟨n + 1, hn⟩ 0 (k0_pay2 (F := Ideal)) hreset).trans ?_
      rw [partialSum_first g (n + 1) h0, zero_add]
    · have hB := outsAt0_B m c ⟨n + 1, hn⟩ h0
      have ih := outsAt_eq g hstep hreset n (Nat.lt_of_succ_lt hn)
      refine (congrFun hB o).trans ?_
      refine (congrFun (Cases.out_B (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h))
        (iblk m c 0 ⟨n + 1, hn⟩) (iblk m c 1 ⟨n + 1, hn⟩) (iblk m c 2 ⟨n + 1, hn⟩) (iblk m c 3 ⟨n + 1, hn⟩)
        (outsAt0 m c n (Nat.lt_of_succ_lt hn))) o).trans ?_
      refine (hstep ⟨n + 1, hn⟩ (partialSum g n) (outsAt0 m c n (Nat.lt_of_succ_lt hn)) ih).trans ?_
      rw [partialSum_succ g n h0]

end Cert.KernelIdeal.Accum

end
-- ==== Proof.Final.lean ====
/-
  The kernel's result array. The one-word output block of a core is written back once, after the core's last grid
  point (the points ≡ 31 mod 32), so the array [2,1,1] ends holding, at (core, 0, 0), the running sum after point
  32·core + 31: the sum of that core's 32 blocks. The two write-backs cover the array.
-/
import proofs.«419607_j26620207301028_3_alg».proof.Proof.Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ) (c : Dev nD)

/-- The result array [2,1,1]: at (core, 0, 0) the running sum after the core's last point, 32·core + 31. -/
def result (g : ℕ → ℝ) : Buf (Elt Ideal) ((c.tc : Thread nD τ).loc main_v5) :=
  fun i => ((partialSum g (32 * (i 0).val + 31) : ℝ) : EReal)

/-- The output block's index at point `t` is its core, `t / 32`. -/
theorem idx_core : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- The output window moves one word at every point. -/
theorem xsize_one : ∀ t : Fin cfg0.N, win0_4.xsize (grid0.coords t) 0 = 1 ∧ win0_4.xsize (grid0.coords t) 1 = 1 ∧ win0_4.xsize (grid0.coords t) 2 = 1 :=
  (by decide +kernel : ∀ t : Fin grid0.N, win0_4.xsize (grid0.coords t) 0 = 1 ∧ win0_4.xsize (grid0.coords t) 1 = 1 ∧ win0_4.xsize (grid0.coords t) 2 = 1)

variable (g : ℕ → ℝ)
  (hstep : ∀ (t : Fin cfg0.N) (p : ℝ) (prev : Vec Ideal S1x1x1 .f32), prev o = ((p : ℝ) : EReal) →
    step m c t prev o = ((p + g t.val : ℝ) : EReal))
  (hreset : k0_pay2 (F := Ideal) o = ((0 : ℝ) : EReal))

include hstep hreset in
/-- A write-back happens after a core's last point only, and writes the core's word of `result`: the running sum there. -/
theorem flushed_eq (t : Fin cfg0.N) (hf : (cfg0.win 4).flush t = true) :
    (dats m 0 c).flushed 4 t = ((cfg0.win 4).blk t).view.read (Elt Ideal) (result c g) := by
  have h31 : t.val % 32 = 31 := (flush0_4 t).mp hf
  show (cfg0.win 4).cut (grid0.coords t) ((dats m 0 c).after 4 t) = _
  rw [after0_4]
  funext y
  rw [View.read_apply]
  show outsAt0 m c t.val t.isLt ((cfg0.win 4).xinj (grid0.coords t) y) = result c g (((cfg0.win 4).blk t).view.emb y)
  have hy : ((cfg0.win 4).xinj (grid0.coords t) y : S1x1x1.Idx) = o :=
    funext fun a => by fin_cases a <;> exact Subsingleton.elim (α := Fin 1) _ _
  rw [hy, outsAt_eq m c g hstep hreset t.val t.isLt]
  unfold result
  have hy0 : (y 0).val = 0 := by
    have h1 : (y 0).val < win0_4.xsize (grid0.coords t) 0 := (y 0).isLt
    rw [(xsize_one t).1] at h1
    omega
  have he : ((((cfg0.win 4).blk t).view.emb y) 0).val = t.val / 32 := by
    show win0_4.index t 0 * 1 + 1 * (y 0).val = _
    rw [(idx_core t).1, hy0]
    omega
  rw [he]
  have ht : 32 * (t.val / 32) + 31 = t.val := by omega
  rw [ht]

/-- Each word of the result array lies in the block its core's last point writes back. -/
theorem cover (i : S2x1x1.Idx) : ∃ t : Fin cfg0.N, (cfg0.win 4).flush t = true ∧ i ∈ ((cfg0.win 4).blk t).view.set := by
  have hN : cfg0.N = 64 := N_0
  have h0 : (i 0).val < 2 := (i 0).isLt
  have h1 : (i 1).val < 1 := (i 1).isLt
  have h2 : (i 2).val < 1 := (i 2).isLt
  refine ⟨⟨32 * (i 0).val + 31, by rw [hN]; omega⟩, (flush0_4 _).mpr (by dsimp only; omega), ?_⟩
  generalize ht : (⟨32 * (i 0).val + 31, by rw [hN]; omega⟩ : Fin cfg0.N) = t
  have htv : t.val = 32 * (i 0).val + 31 := by rw [← ht]
  show i ∈ ((View.whole main_v5).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + win0_4.xsize (grid0.coords t) 0
    rw [(idx_core t).1, (xsize_one t).1]; omega
  | ⟨1, _⟩ =>
    show win0_4.index t 1 * 1 ≤ (i 1 : Nat) ∧ (i 1 : Nat) < win0_4.index t 1 * 1 + win0_4.xsize (grid0.coords t) 1
    rw [(idx_core t).2.1, (xsize_one t).2.1]; omega
  | ⟨2, _⟩ =>
    show win0_4.index t 2 * 1 ≤ (i 2 : Nat) ∧ (i 2 : Nat) < win0_4.index t 2 * 1 + win0_4.xsize (grid0.coords t) 2
    rw [(idx_core t).2.2, (xsize_one t).2.2]; omega

include hstep hreset in
/-- So the result array ends holding the two cores' sums. -/
theorem final_out : (dats m 0 c).arrAt 4 cfg0.N = result c g :=
  (dats m 0 c).arrAt_eq_of_cover 4 (result c g) (flushed_eq m c g hstep hreset) (cover)

end Cert.KernelIdeal.Final

end
-- ==== Proof.CenterLoss.lean ====
/-
  The contrastive centre loss over the reals.

  For features `f : [16384, 128]`, centres `c : [4096, 128]` and labels `ℓ : [16384] → [0, 4096)` write
  `dist b k = ‖f_b‖² + ‖c_k‖² − 2 ⟨f_b, c_k⟩` (the squared distance ‖f_b − c_k‖², expanded). Then
    intra = ∑_b dist b (ℓ b)          (each feature against its own centre)
    total = ∑_b ∑_k dist b k          (every feature against every centre)
  and the loss is `(2⁻¹⁵ · intra) / ((total − intra) + ε) / 0.1`, the three constants kept as the float
  words both programs carry (they are never evaluated: the same words stand on both sides).
-/
import Idealize.ShloMosaic.PureOps.Ideal
import Idealize.ShloMosaic.Lib.ValueIdx

noncomputable section

namespace Cert.CenterLoss

open Idealize.ShloMosaic

/-- Squared length of row `b`. -/
def sqn {n : Nat} (f : Fin n → Fin 128 → ℝ) (b : Fin n) : ℝ := ∑ d : Fin 128, f b d * f b d

/-- Inner product of feature row `b` with centre `k`. -/
def dotp {n p : Nat} (f : Fin n → Fin 128 → ℝ) (c : Fin p → Fin 128 → ℝ) (b : Fin n) (k : Fin p) : ℝ :=
  ∑ d : Fin 128, f b d * c k d

/-- The squared distance of feature `b` from centre `k`, expanded. -/
def dist {n p : Nat} (f : Fin n → Fin 128 → ℝ) (c : Fin p → Fin 128 → ℝ) (b : Fin n) (k : Fin p) : ℝ :=
  (sqn f b + sqn c k) - 2 * dotp f c b k

/-- Every feature against its own centre. -/
def intra {n p : Nat} (f : Fin n → Fin 128 → ℝ) (c : Fin p → Fin 128 → ℝ) (ℓ : Fin n → Fin p) : ℝ :=
  ∑ b : Fin n, dist f c b (ℓ b)

/-- Every feature against every centre. -/
def total {n p : Nat} (f : Fin n → Fin 128 → ℝ) (c : Fin p → Fin 128 → ℝ) : ℝ :=
  ∑ b : Fin n, ∑ k : Fin p, dist f c b k

/-- Row `r` of the `t`-th block of 256 rows: the kernel walks the 16384 features in 64 such blocks. -/
def row (t : Fin 64) (r : Fin 256) : Fin 16384 := ⟨256 * t.val + r.val, by have := t.isLt; have := r.isLt; omega⟩

/-- The features of block `t`. -/
def tileF (f : Fin 16384 → Fin 128 → ℝ) (t : Fin 64) : Fin 256 → Fin 128 → ℝ := fun r d => f (row t r) d

/-- The labels of block `t`. -/
def tileL (ℓ : Fin 16384 → Fin 4096) (t : Fin 64) : Fin 256 → Fin 4096 := fun r => ℓ (row t r)

/-- The rank-0 shape of the result. -/
abbrev S0 : Shape := ⟨0, ![]⟩

/-- The loss from the two sums: `(2⁻¹⁵ · I) / ((T − I) + ε) / 0.1` with the constants as float words. -/
def loss (I T : EReal) : FVec Ideal S0 .f32 :=
  Host.divf
    (Host.divf (mulf (constant (F := Ideal) S0 .f32 0x38000000#32) (fun _ => I))
      (addf (subf (fun _ => T) (fun _ => I)) (constant (F := Ideal) S0 .f32 0x358637BD#32)))
    (constant (F := Ideal) S0 .f32 0x3DCCCCCD#32)

end Cert.CenterLoss

end
-- ==== Proof.TileValue.lean ====
/-
  One block of 256 rows of the contrastive centre loss, read at the ideal values.

  The body sees 256 feature rows xf_r in ℝ¹²⁸ with labels lab r in [0, 4096), the 4096 centres xc_k, and the
  centres' squared lengths ‖xc_k‖². It forms the mask M[r, k] = [k = lab r] and reads it as a 0/1 matrix. Then
    (M · xc)[r, d] = xc_(lab r)[d],   so   ∑_r ∑_d xf_r[d] · (M · xc)[r, d] = ∑_r ⟨xf_r, xc_(lab r)⟩,
    ∑_k (∑_r M[r, k]) · ‖xc_k‖² = ∑_r ‖xc_(lab r)‖²   (exchange the two sums; a one-hot row keeps one term),
  and the value written is
    prev + ((∑_r ‖xf_r‖² + ∑_r ‖xc_(lab r)‖²) − 2 · ∑_r ⟨xf_r, xc_(lab r)⟩) = prev + ∑_r dist r (lab r).
  Every quantity is finite: each intermediate is shown equal to a real number read in the extended reals, and the
  last step is an identity between finite real sums.
-/
import proofs.«419607_j26620207301028_3_alg».proof.Proof.Gen.KernelIdeal.Skeleton
import proofs.«419607_j26620207301028_3_alg».proof.Proof.CenterLoss
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Tile

open Cert.KernelIdeal Cert.KernelIdeal.Gen Cert.CenterLoss Idealize.ShloMosaic Idealize.ShloMosaic.ValueIdx

/-- The mask at an index: column k of row r is set exactly when k is the row's label. -/
theorem mask_apply (x3 : Vec Ideal S256x1 .i32) (lab : Fin 256 → Fin 4096)
    (h3 : ∀ r : Fin 256, x3 (ix2 r (0 : Fin 1)) = BitVec.ofNat 32 (lab r).val) (r : Fin 256) (k : Fin 4096) :
    k0_pay3 (F := Ideal) x3 (ix2 r k) = if k = lab r then 1#1 else 0#1 := by
  unfold k0_pay3
  show IntOp.cmpi .eq (iota .tc S256x4096 32 [1] iota_S256x4096_d1_w32 (ix2 r k))
    (broadcastTo S256x4096 (shapeCast S256x1 x3 shapeCasts_S256x1_S256x1) broadcasts_S256x1_S256x4096 (ix2 r k)) = _
  rw [iota_single_apply, shapeCast_self]
  rw [broadcastTo_apply x3 broadcasts_S256x1_S256x4096 (ix2 r k) (ix2 r (0 : Fin 1)) (fun a => match a with
    | ⟨0, _⟩ => by show r.val = if (256 : Nat) = 1 then 0 else r.val; rw [if_neg (by decide)]
    | ⟨1, _⟩ => by show 0 = if (1 : Nat) = 1 then 0 else k.val; rw [if_pos rfl])]
  rw [h3 r]
  show IntOp.cmpi .eq (BitVec.ofNat 32 k.val) (BitVec.ofNat 32 (lab r).val) = _
  unfold IntOp.cmpi
  by_cases h : k = lab r
  · subst h; simp
  · have hne : BitVec.ofNat 32 k.val ≠ BitVec.ofNat 32 (lab r).val := by
      intro he
      have h1 := congrArg BitVec.toNat he
      rw [BitVec.toNat_ofNat, BitVec.toNat_ofNat] at h1
      have hk := k.isLt
      have hl := (lab r).isLt
      apply h
      apply Fin.ext
      omega
    rw [beq_eq_false_iff_ne.mpr hne, if_neg h]
    rfl

/-- The left operand's row coordinate at an output index is the output's row. -/
theorem lhs_dot_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
/-- The left operand's column coordinate is the contraction position. -/
theorem lhs_dot_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
/-- The right operand's row coordinate is the contraction position. -/
theorem rhs_dot_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
/-- The right operand's column coordinate is the output's column. -/
theorem rhs_dot_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The product into the zero accumulator, read at (r, d): the sum over the 4096 columns of the left row against the right column. -/
theorem matmul_zero_apply (A : FVec Ideal S256x4096 .bf16) (B : FVec Ideal S4096x128 .bf16) (r : Fin 256) (d : Fin 128) :
    matmul dot_S256x4096_S4096x128_S256x128_1_0_0_1_n_n none A B (constant (F := Ideal) S256x128 .f32 0x00000000#32) (ix2 r d)
      = ∑ k : Fin 4096, A (ix2 r k) * B (ix2 k d) := by
  refine (Ideal.matmul_constant_zero_apply dot_S256x4096_S4096x128_S256x128_1_0_0_1_n_n none A B (ix2 r d)).trans ?_
  rw [← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 r d) ((contrEquiv1 dot_S256x4096_S4096x128_S256x128_1_0_0_1_n_n 4096 rfl rfl).symm k) = ix2 r k := funext fun a => Fin.ext (by
    match a with
    | ⟨0, _⟩ => exact lhs_dot_0 _ _
    | ⟨1, _⟩ => exact (lhs_dot_1 _ _).trans hk)
  have er : dot_S256x4096_S4096x128_S256x128_1_0_0_1_n_n.rhsIdx (ix2 r d) ((contrEquiv1 dot_S256x4096_S4096x128_S256x128_1_0_0_1_n_n 4096 rfl rfl).symm k) = ix2 k d := funext fun a => Fin.ext (by
    match a with
    | ⟨0, _⟩ => exact (rhs_dot_0 _ _).trans hk
    | ⟨1, _⟩ => exact rhs_dot_1 _ _)
  rw [el, er]

/-- A finite real sum read in the extended reals is the sum of its terms read there. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- The one-hot row in the narrow format: 1 at the label's column, 0 elsewhere. -/
theorem onehot_bf16_apply (x3 : Vec Ideal S256x1 .i32) (lab : Fin 256 → Fin 4096)
    (h3 : ∀ r : Fin 256, x3 (ix2 r (0 : Fin 1)) = BitVec.ofNat 32 (lab r).val) (r : Fin 256) (k : Fin 4096) :
    select (k0_pay3 (F := Ideal) x3) (broadcast S256x4096 (Scalar.ofBits (F := Ideal) .bf16 0x3F80#16))
        (broadcast S256x4096 (Scalar.ofBits (F := Ideal) .bf16 0x0000#16)) (ix2 r k)
      = (((if k = lab r then 1 else 0 : ℝ)) : EReal) := by
  show Scalar.select (k0_pay3 (F := Ideal) x3 (ix2 r k)) (Ideal.ofBits .bf16 0x3F80#16) (Ideal.ofBits .bf16 0x0000#16) = _
  rw [mask_apply x3 lab h3, Ideal.ofBits_one_bf16, Ideal.ofBits_zero_bf16]
  by_cases h : k = lab r
  · rw [if_pos h, if_pos h, select_one, EReal.coe_one]
  · rw [if_neg h, if_neg h, select_zero, EReal.coe_zero]

/-- The one-hot rows times the centres pick, for row r, the centre of r's label. -/
theorem gathered_apply (xc : Fin 4096 → Fin 128 → ℝ) (lab : Fin 256 → Fin 4096)
    (x1 : FVec Ideal S4096x128 .bf16) (x3 : Vec Ideal S256x1 .i32)
    (h1 : ∀ (k : Fin 4096) (d : Fin 128), x1 (ix2 k d) = ((xc k d : ℝ) : EReal))
    (h3 : ∀ r : Fin 256, x3 (ix2 r (0 : Fin 1)) = BitVec.ofNat 32 (lab r).val) (r : Fin 256) (d : Fin 128) :
    matmul dot_S256x4096_S4096x128_S256x128_1_0_0_1_n_n none
        (select (k0_pay3 (F := Ideal) x3) (broadcast S256x4096 (Scalar.ofBits (F := Ideal) .bf16 0x3F80#16))
          (broadcast S256x4096 (Scalar.ofBits (F := Ideal) .bf16 0x0000#16)))
        (shapeCast S4096x128 x1 shapeCasts_S4096x128_S4096x128)
        (constant (F := Ideal) S256x128 .f32 0x00000000#32) (ix2 r d)
      = ((xc (lab r) d : ℝ) : EReal) := by
  rw [matmul_zero_apply, shapeCast_self]
  have hterm : ∀ k : Fin 4096,
      select (k0_pay3 (F := Ideal) x3) (broadcast S256x4096 (Scalar.ofBits (F := Ideal) .bf16 0x3F80#16))
          (broadcast S256x4096 (Scalar.ofBits (F := Ideal) .bf16 0x0000#16)) (ix2 r k) * x1 (ix2 k d)
        = (((if k = lab r then xc k d else 0 : ℝ)) : EReal) := fun k => by
    rw [onehot_bf16_apply x3 lab h3 r k, h1 k d, ← EReal.coe_mul, ite_mul, one_mul, zero_mul]
  rw [Finset.sum_congr rfl (fun k _ => hterm k), ← coe_sum, Finset.sum_ite_eq' Finset.univ (lab r) (fun k => xc k d), if_pos (Finset.mem_univ _)]

/-- A column of 256 entries written as a 256-by-1 array keeps its entries. -/
theorem cast_col_apply {α : Type} (v : S256.Idx → α) (r : Fin 256) :
    shapeCast S256x1 v shapeCasts_S256_S256x1 (ix2 r (0 : Fin 1)) = v (ix1 r) :=
  shapeCast_apply v shapeCasts_S256_S256x1 _ _ (by
    rw [Shape.rowMajor_val_two, Shape.rowMajor_val_one]
    show r.val = r.val * 1 + 0
    omega)

/-- A one-entry vector written as a 1-by-1 array keeps its entry. -/
theorem cast_11_apply {α : Type} (v : S1.Idx → α) :
    shapeCast S1x1 v shapeCasts_S1_S1x1 (ix2 (0 : Fin 1) (0 : Fin 1)) = v (ix1 (0 : Fin 1)) :=
  shapeCast_a_1a_apply v shapeCasts_S1_S1x1 0 0

/-- A 4096-vector written as a 1-by-4096 array keeps its entries. -/
theorem cast_row_apply {α : Type} (v : S4096.Idx → α) (k : Fin 4096) :
    shapeCast S1x4096 v shapeCasts_S4096_S1x4096 (ix2 (0 : Fin 1) k) = v (ix1 k) :=
  shapeCast_a_1a_apply v shapeCasts_S4096_S1x4096 0 k

/-- The 1-by-1-by-1 array read as 1-by-1. -/
theorem cast_111_11_apply {α : Type} (v : S1x1x1.Idx → α) :
    shapeCast S1x1 v shapeCasts_S1x1x1_S1x1 (ix2 (0 : Fin 1) (0 : Fin 1)) = v (ix3 (0 : Fin 1) (0 : Fin 1) (0 : Fin 1)) :=
  shapeCast_apply v shapeCasts_S1x1x1_S1x1 _ _ (by
    rw [Shape.rowMajor_val_three, Shape.rowMajor_val_two]
    rfl)

/-- The 1-by-1 array read as 1-by-1-by-1. -/
theorem cast_11_111_apply {α : Type} (v : S1x1.Idx → α) :
    shapeCast S1x1x1 v shapeCasts_S1x1_S1x1x1 (ix3 (0 : Fin 1) (0 : Fin 1) (0 : Fin 1)) = v (ix2 (0 : Fin 1) (0 : Fin 1)) :=
  shapeCast_apply v shapeCasts_S1x1_S1x1x1 _ _ (by
    rw [Shape.rowMajor_val_three, Shape.rowMajor_val_two]
    rfl)

/-- Summing a 256-by-128 array along its rows: entry r is the sum of row r. -/
theorem rowsum_apply (src : FVec Ideal S256x128 .f32) (r : Fin 256) :
    multiReduction (F := Ideal) .add [1] S256 src 0x00000000#32 reduces_S256x128_S256 (.inl rfl) rfl (ix1 r)
      = ∑ d : Fin 128, src (ix2 r d) := by
  refine (Ideal.multiReduction_add_single src 0x00000000#32 reduces_S256x128_S256 (.inl rfl) rfl (ix1 r)).trans ?_
  refine Finset.sum_congr rfl fun d _ => congrArg src (funext fun a => ?_)
  match a with
  | ⟨0, _⟩ => rfl
  | ⟨1, _⟩ => rfl

/-- Summing a 256-by-1 column: the one entry is the sum of the 256. -/
theorem colsum1_apply (src : FVec Ideal S256x1 .f32) :
    multiReduction (F := Ideal) .add [0] S1 src 0x00000000#32 reduces_S256x1_S1 (.inl rfl) rfl (ix1 (0 : Fin 1))
      = ∑ r : Fin 256, src (ix2 r (0 : Fin 1)) := by
  refine (Ideal.multiReduction_add_single src 0x00000000#32 reduces_S256x1_S1 (.inl rfl) rfl (ix1 (0 : Fin 1))).trans ?_
  refine Finset.sum_congr rfl fun r _ => congrArg src (funext fun a => ?_)
  match a with
  | ⟨0, _⟩ => rfl
  | ⟨1, _⟩ => rfl

/-- Summing a 256-by-4096 array down its columns: entry k is the sum of column k. -/
theorem colsum_apply (src : FVec Ideal S256x4096 .f32) (k : Fin 4096) :
    multiReduction (F := Ideal) .add [0] S4096 src 0x00000000#32 reduces_S256x4096_S4096 (.inl rfl) rfl (ix1 k)
      = ∑ r : Fin 256, src (ix2 r k) := by
  refine (Ideal.multiReduction_add_single src 0x00000000#32 reduces_S256x4096_S4096 (.inl rfl) rfl (ix1 k)).trans ?_
  refine Finset.sum_congr rfl fun r _ => congrArg src (funext fun a => ?_)
  match a with
  | ⟨0, _⟩ => rfl
  | ⟨1, _⟩ => rfl

/-- Summing a 1-by-4096 row: the one entry is the sum of the 4096. -/
theorem rowsum1_apply (src : FVec Ideal S1x4096 .f32) :
    multiReduction (F := Ideal) .add [1] S1 src 0x00000000#32 reduces_S1x4096_S1 (.inl rfl) rfl (ix1 (0 : Fin 1))
      = ∑ k : Fin 4096, src (ix2 (0 : Fin 1) k) := by
  refine (Ideal.multiReduction_add_single src 0x00000000#32 reduces_S1x4096_S1 (.inl rfl) rfl (ix1 (0 : Fin 1))).trans ?_
  refine Finset.sum_congr rfl fun k _ => congrArg src (funext fun a => ?_)
  match a with
  | ⟨0, _⟩ => rfl
  | ⟨1, _⟩ => rfl

/-- The inner-product payload: the sum over the block's rows of the row against the centre of its label. -/
theorem pay4_value (xf : Fin 256 → Fin 128 → ℝ) (xc : Fin 4096 → Fin 128 → ℝ) (lab : Fin 256 → Fin 4096)
    (x0 : Vec Ideal S256x128 .f32) (x1 : Vec Ideal S4096x128 .bf16) (x3 : Vec Ideal S256x1 .i32)
    (h0 : ∀ (r : Fin 256) (d : Fin 128), x0 (ix2 r d) = ((xf r d : ℝ) : EReal))
    (h1 : ∀ (k : Fin 4096) (d : Fin 128), x1 (ix2 k d) = ((xc k d : ℝ) : EReal))
    (h3 : ∀ r : Fin 256, x3 (ix2 r (0 : Fin 1)) = BitVec.ofNat 32 (lab r).val) :
    k0_pay4 (F := Ideal) x0 x1 x3 (ix2 (0 : Fin 1) (0 : Fin 1)) = ((∑ r : Fin 256, dotp xf xc r (lab r) : ℝ) : EReal) := by
  unfold k0_pay4
  refine (cast_11_apply _).trans ?_
  refine (colsum1_apply _).trans ?_
  rw [coe_sum]
  refine Finset.sum_congr rfl fun r _ => ?_
  refine (cast_col_apply _ r).trans ?_
  refine (rowsum_apply _ r).trans ?_
  unfold dotp
  rw [coe_sum]
  refine Finset.sum_congr rfl fun d _ => ?_
  refine (congrArg₂ (· * ·) (h0 r d) (gathered_apply xc lab x1 x3 h1 h3 r d)).trans ?_
  exact (EReal.coe_mul _ _).symm

/-- The one-hot row in the wide format: 1 at the label's column, 0 elsewhere. -/
theorem onehot_f32_apply (x3 : Vec Ideal S256x1 .i32) (lab : Fin 256 → Fin 4096)
    (h3 : ∀ r : Fin 256, x3 (ix2 r (0 : Fin 1)) = BitVec.ofNat 32 (lab r).val) (r : Fin 256) (k : Fin 4096) :
    select (k0_pay3 (F := Ideal) x3) (broadcast S256x4096 (Scalar.ofBits (F := Ideal) .f32 0x3F800000#32))
        (broadcast S256x4096 (Scalar.ofBits (F := Ideal) .f32 0x00000000#32)) (ix2 r k)
      = (((if k = lab r then 1 else 0 : ℝ)) : EReal) := by
  show Scalar.select (k0_pay3 (F := Ideal) x3 (ix2 r k)) (Ideal.ofBits .f32 0x3F800000#32) (Ideal.ofBits .f32 0x00000000#32) = _
  rw [mask_apply x3 lab h3, Ideal.ofBits_one_f32, Ideal.ofBits_zero_f32]
  by_cases h : k = lab r
  · rw [if_pos h, if_pos h, select_one, EReal.coe_one]
  · rw [if_neg h, if_neg h, select_zero, EReal.coe_zero]

/-- Weighting each centre by the number of rows that carry its label, and summing over the centres,
    is summing over the rows the weight of each row's own centre. -/
theorem count_weighted_sum (lab : Fin 256 → Fin 4096) (s : Fin 4096 → ℝ) :
    ∑ k : Fin 4096, (∑ r : Fin 256, (if k = lab r then 1 else 0 : ℝ)) * s k = ∑ r : Fin 256, s (lab r) := by
  simp only [Finset.sum_mul]
  rw [Finset.sum_comm]
  refine Finset.sum_congr rfl fun r _ => ?_
  simp only [ite_mul, one_mul, zero_mul]
  rw [Finset.sum_ite_eq' Finset.univ (lab r) s, if_pos (Finset.mem_univ _)]

/-- The squared-lengths payload: the block's rows' squared lengths plus the squared lengths of the rows' own centres. -/
theorem pay5_value (xf : Fin 256 → Fin 128 → ℝ) (xc : Fin 4096 → Fin 128 → ℝ) (lab : Fin 256 → Fin 4096)
    (x0 : Vec Ideal S256x128 .f32) (x2 : Vec Ideal S1x4096 .f32) (x3 : Vec Ideal S256x1 .i32)
    (h0 : ∀ (r : Fin 256) (d : Fin 128), x0 (ix2 r d) = ((xf r d : ℝ) : EReal))
    (h2 : ∀ k : Fin 4096, x2 (ix2 (0 : Fin 1) k) = ((sqn xc k : ℝ) : EReal))
    (h3 : ∀ r : Fin 256, x3 (ix2 r (0 : Fin 1)) = BitVec.ofNat 32 (lab r).val) :
    k0_pay5 (F := Ideal) x0 x3 x2 (ix2 (0 : Fin 1) (0 : Fin 1))
      = ((∑ r : Fin 256, sqn xf r + ∑ r : Fin 256, sqn xc (lab r) : ℝ) : EReal) := by
  unfold k0_pay5
  refine (addf_apply _ _ _).trans ?_
  rw [EReal.coe_add]
  refine congrArg₂ (fun a b : EReal => a + b) ?_ ?_
  · refine (cast_11_apply _).trans ?_
    refine (colsum1_apply _).trans ?_
    rw [coe_sum]
    refine Finset.sum_congr rfl fun r _ => ?_
    refine (cast_col_apply _ r).trans ?_
    refine (rowsum_apply _ r).trans ?_
    unfold sqn
    rw [coe_sum]
    refine Finset.sum_congr rfl fun d _ => ?_
    refine (congrArg₂ (· * ·) (h0 r d) (h0 r d)).trans ?_
    exact (EReal.coe_mul _ _).symm
  · refine (cast_11_apply _).trans ?_
    refine (rowsum1_apply _).trans ?_
    rw [← count_weighted_sum lab (sqn xc), coe_sum]
    refine Finset.sum_congr rfl fun k _ => ?_
    refine (mulf_apply _ _ _).trans ?_
    rw [EReal.coe_mul]
    refine congrArg₂ (fun a b : EReal => a * b) ?_ ?_
    · refine (cast_row_apply _ k).trans ?_
      refine (colsum_apply _ k).trans ?_
      rw [coe_sum]
      exact Finset.sum_congr rfl fun r _ => onehot_f32_apply x3 lab h3 r k
    · rw [shapeCast_self]
      exact h2 k

/-- The wide-format pattern 0x40000000 is the real two. -/
theorem ofBits_two_f32 : Ideal.ofBits .f32 0x40000000#32 = ((2 : ℝ) : EReal) := by
  simp [Ideal.ofBits, Ideal.ieee, -EReal.coe_mul]; norm_num

/-- The update: the running value plus (squared lengths minus twice the inner products). -/
theorem pay1_value (a b p : ℝ) (v24 v35 : FVec Ideal S1x1 .f32) (prev : Vec Ideal S1x1x1 .f32)
    (ha : v24 (ix2 (0 : Fin 1) (0 : Fin 1)) = ((a : ℝ) : EReal))
    (hb : v35 (ix2 (0 : Fin 1) (0 : Fin 1)) = ((b : ℝ) : EReal))
    (hp : prev (ix3 (0 : Fin 1) (0 : Fin 1) (0 : Fin 1)) = ((p : ℝ) : EReal)) :
    k0_pay1 (F := Ideal) v24 v35 prev (ix3 (0 : Fin 1) (0 : Fin 1) (0 : Fin 1)) = ((p + (b - 2 * a) : ℝ) : EReal) := by
  unfold k0_pay1
  refine (cast_11_111_apply _).trans ?_
  refine (addf_apply _ _ _).trans ?_
  rw [EReal.coe_add]
  refine congrArg₂ (fun x y : EReal => x + y) ?_ ?_
  · exact (cast_111_11_apply prev).trans hp
  · refine (subf_apply _ _ _).trans ?_
    rw [EReal.coe_sub]
    refine congrArg₂ (fun x y : EReal => x - y) hb ?_
    refine (mulf_apply _ _ _).trans ?_
    rw [EReal.coe_mul]
    exact congrArg₂ (fun x y : EReal => x * y) ofBits_two_f32 ha

/-- The reset stores the zero. -/
theorem reset_value : k0_pay2 (F := Ideal) (ix3 (0 : Fin 1) (0 : Fin 1) (0 : Fin 1)) = ((0 : ℝ) : EReal) := by
  unfold k0_pay2
  refine (cast_11_111_apply _).trans ?_
  show Ideal.ofBits .f32 0x00000000#32 = _
  rw [Ideal.ofBits_zero_f32, EReal.coe_zero]

/-- One block: on finite features xf, centres xc (whose squared lengths stand in the third operand) and in-range labels lab, the body adds to the running value p the block's
    ∑_r ‖xf_r − xc_(lab r)‖² (expanded). -/
theorem tile_value (xf : Fin 256 → Fin 128 → ℝ) (xc : Fin 4096 → Fin 128 → ℝ) (lab : Fin 256 → Fin 4096) (p : ℝ)
    (x0 : Vec Ideal S256x128 .f32) (x1 : Vec Ideal S4096x128 .bf16) (x2 : Vec Ideal S1x4096 .f32)
    (x3 : Vec Ideal S256x1 .i32) (prev : Vec Ideal S1x1x1 .f32)
    (h0 : ∀ (r : Fin 256) (d : Fin 128), x0 (ix2 r d) = ((xf r d : ℝ) : EReal))
    (h1 : ∀ (k : Fin 4096) (d : Fin 128), x1 (ix2 k d) = ((xc k d : ℝ) : EReal))
    (h2 : ∀ k : Fin 4096, x2 (ix2 (0 : Fin 1) k) = ((sqn xc k : ℝ) : EReal))
    (h3 : ∀ r : Fin 256, x3 (ix2 r (0 : Fin 1)) = BitVec.ofNat 32 (lab r).val)
    (hp : prev (ix3 (0 : Fin 1) (0 : Fin 1) (0 : Fin 1)) = ((p : ℝ) : EReal)) :
    k0_pay1 (F := Ideal) (k0_pay4 x0 x1 x3) (k0_pay5 x0 x3 x2) prev (ix3 (0 : Fin 1) (0 : Fin 1) (0 : Fin 1))
      = ((p + intra xf xc lab : ℝ) : EReal) := by
  refine (pay1_value _ _ p _ _ prev (pay4_value xf xc lab x0 x1 x3 h0 h1 h3) (pay5_value xf xc lab x0 x2 x3 h0 h2 h3) hp).trans ?_
  refine congrArg (fun t : ℝ => ((t : ℝ) : EReal)) ?_
  unfold intra CenterLoss.dist
  rw [Finset.sum_sub_distrib, Finset.sum_add_distrib, ← Finset.mul_sum]

end Cert.KernelIdeal.Tile

end
-- ==== Proof.Blocks.lean ====
/-
  What each input block holds at a grid point.

  The kernel walks the 16384 feature rows in 64 blocks of 256 rows; grid point t (of 64, two cores times 32 steps,
  block row 32·core + step = t) reads
    · block 0: rows 256·t … 256·t + 255 of the features,
    · block 1: all 4096 centres (in the narrow float format, which over the extended reals changes nothing),
    · block 2: the row of the centres' squared lengths ‖c_k‖² = ∑_d c_k,d², computed before the kernel by
      squaring, summing each row from zero, and laying the sums out as one row,
    · block 3: rows 256·t … 256·t + 255 of the labels, laid out as a column.
  When the features and centres are finite reals and the labels are the words of numbers below 4096, each entry of
  each block is the corresponding real (or label word). An entry of a block sits in its array at
  (block index × block size + position inside the block) along each axis.
-/
import proofs.«419607_j26620207301028_3_alg».proof.Proof.Gen.KernelIdeal.Frame
import proofs.«419607_j26620207301028_3_alg».proof.Proof.CenterLoss
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic
import Idealize.ShloMosaic.PureOps.Ideal.Laws

noncomputable section

namespace Cert.KernelIdeal.Blocks

open Cert.KernelIdeal Cert.KernelIdeal.Gen Cert.CenterLoss Idealize.ShloMosaic Idealize.ShloMosaic.ValueIdx Idealize.ShloMosaic.TcCoe Idealize.SL.Sem

variable (m : (ℓ : Loc nD τ sig) → Buf (Elt Ideal) ℓ) (c : Dev nD)
variable (fr : Fin 16384 → Fin 128 → ℝ) (cr : Fin 4096 → Fin 128 → ℝ) (lb : Fin 16384 → Fin 4096)

/-- Grid point t as one of the 64 blocks of rows. -/
def blockOf (t : Fin cfg0.N) : Fin 64 := ⟨t.val, lt_of_lt_of_eq t.isLt N_0⟩

/-- The centres in the narrow format, as the kernel finds them: the launch's centres, a change of format only. -/
theorem V_v4 : (V m c main_v4 : S4096x128.Idx → EReal)
    = (truncf (F := Ideal) .bf16 (m ((c.tc : Thread nD τ).loc main_arg2) : FVec Ideal S4096x128 .f32) bitsLt_bf16_f32 : FVec Ideal S4096x128 .bf16) := by
  dsimp only [V, V0]
  simp only [hostOps0, List.flatten_cons, List.flatten_nil, List.append_nil, List.cons_append, List.nil_append]
  after_results <;> rfl

/-- The labels as a column, as the kernel finds them: the launch's labels laid out again. -/
theorem V_v0 : (V m c main_v0 : S16384x1.Idx → BitVec 32)
    = shapeCast S16384x1 (m ((c.tc : Thread nD τ).loc main_arg1) : S16384.Idx → BitVec 32) shapeCasts_S16384_S16384x1 := by
  dsimp only [V, V0]
  simp only [hostOps0, List.flatten_cons, List.flatten_nil, List.append_nil, List.cons_append, List.nil_append]
  after_results <;> rfl

/-- The row of squared lengths, as the kernel finds it: the centres squared entry by entry, summed along each
    row from zero, and laid out as one row. -/
theorem V_v3 : (V m c main_v3 : S1x4096.Idx → EReal)
    = broadcastInDim S1x4096 ![1] bcast_S4096_S1x4096_1
        (Host.reduceAdd (F := Ideal)
          (mulf (m ((c.tc : Thread nD τ).loc main_arg2) : FVec Ideal S4096x128 .f32) (m ((c.tc : Thread nD τ).loc main_arg2) : FVec Ideal S4096x128 .f32))
          (constant (F := Ideal) S_ .f32 0x00000000#32) reducesTo_S4096x128_S4096_d1 h_S_) := by
  dsimp only [V, V0]
  simp only [hostOps0, List.flatten_cons, List.flatten_nil, List.append_nil, List.cons_append, List.nil_append]
  after_results <;> rfl

/-- Where the feature blocks sit: grid point t's block is block row t of the features, at column block 0. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The centres are staged whole at every grid point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The row of squared lengths is staged whole at every grid point. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The label blocks follow the feature blocks: block row t of the column of labels. -/
theorem idx3 : ∀ t : Fin cfg0.N, win0_3.index t 0 = t.val ∧ win0_3.index t 1 = 0 :=
  (by decide +kernel : ∀ t : Fin grid0.N, win0_3.index t 0 = t.val ∧ win0_3.index t 1 = 0)

/-- A real sum read among the extended reals is the sum of its terms read there. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- Entry (r, d) of the feature block at grid point t is feature row 256·t + r at column d. -/
theorem feat_block (hf : ∀ (b : Fin 16384) (d : Fin 128), m ((c.tc : Thread nD τ).loc main_arg0) (ix2 b d) = ((fr b d : ℝ) : EReal))
    (t : Fin cfg0.N) (r : Fin 256) (d : Fin 128) :
    (iblk m c 0 t : Vec Ideal S256x128 .f32) (ix2 r d) = ((fr (row (blockOf t) r) d : ℝ) : EReal) := by
  unfold iblk
  rw [View.read_apply]
  show V m c main_arg0 _ = _
  rw [V_main_arg0 m c]
  refine (congrArg (m ((c.tc : Thread nD τ).loc main_arg0)) ?_).trans (hf (row (blockOf t) r) d)
  funext a
  apply Fin.ext
  match a with
  | ⟨0, _⟩ => show win0_0.index t 0 * 256 + 1 * r.val = 256 * t.val + r.val; rw [(idx0 t).1]; omega
  | ⟨1, _⟩ => show win0_0.index t 1 * 128 + 1 * d.val = d.val; rw [(idx0 t).2]; omega

/-- Every grid point sees the whole array of centres, entry by entry the launch's centres. -/
theorem centers_block (hc : ∀ (k : Fin 4096) (d : Fin 128), m ((c.tc : Thread nD τ).loc main_arg2) (ix2 k d) = ((cr k d : ℝ) : EReal))
    (t : Fin cfg0.N) (k : Fin 4096) (d : Fin 128) :
    (iblk m c 1 t : Vec Ideal S4096x128 .bf16) (ix2 k d) = ((cr k d : ℝ) : EReal) := by
  unfold iblk
  rw [View.read_apply]
  show V m c main_v4 _ = _
  refine (congrFun (V_v4 m c) _).trans ?_
  rw [truncf_apply]
  refine (congrArg (m ((c.tc : Thread nD τ).loc main_arg2)) ?_).trans (hc k d)
  funext a
  apply Fin.ext
  match a with
  | ⟨0, _⟩ => show win0_1.index t 0 * 4096 + 1 * k.val = k.val; rw [(idx1 t).1]; omega
  | ⟨1, _⟩ => show win0_1.index t 1 * 128 + 1 * d.val = d.val; rw [(idx1 t).2]; omega

/-- The squared length of centre k from the array of centres: its entries squared and summed along the row, from zero. -/
theorem rowsq (A : FVec Ideal S4096x128 .f32) (hA : ∀ (k : Fin 4096) (d : Fin 128), A (ix2 k d) = ((cr k d : ℝ) : EReal)) (k : Fin 4096) :
    Host.reduceAdd (F := Ideal) (mulf A A) (constant (F := Ideal) S_ .f32 0x00000000#32) reducesTo_S4096x128_S4096_d1 h_S_ (ix1 k)
      = ((sqn cr k : ℝ) : EReal) := by
  have h : S4096x128.Reduces [1] S4096 := by decide
  rw [hostReduceAdd_apply, Ideal.hostReduceAdd_single reducesTo_S4096x128_S4096_d1 h]
  show Ideal.ofBits .f32 0x00000000#32 + (∑ d : Fin 128, mulf A A (h.lift (ix1 k) d)) = _
  rw [Ideal.ofBits_zero_f32, zero_add]
  unfold sqn
  rw [coe_sum]
  refine Finset.sum_congr rfl fun d _ => ?_
  have e : h.lift (ix1 k) d = ix2 k d := by
    funext a
    apply Fin.ext
    match a with
    | ⟨0, _⟩ => rfl
    | ⟨1, _⟩ => rfl
  rw [e, mulf_apply, hA, EReal.coe_mul]

/-- Every grid point sees the whole row of squared lengths: entry k is the squared length of centre k. -/
theorem csq_block (hc : ∀ (k : Fin 4096) (d : Fin 128), m ((c.tc : Thread nD τ).loc main_arg2) (ix2 k d) = ((cr k d : ℝ) : EReal))
    (t : Fin cfg0.N) (k : Fin 4096) :
    (iblk m c 2 t : Vec Ideal S1x4096 .f32) (ix2 (0 : Fin 1) k) = ((sqn cr k : ℝ) : EReal) := by
  unfold iblk
  rw [View.read_apply]
  show V m c main_v3 _ = _
  refine (congrFun (V_v3 m c) _).trans ?_
  refine (broadcastInDim_apply _ _ _ _ (ix1 k) ?_).trans (rowsq cr _ hc k)
  intro a
  match a with
  | ⟨0, _⟩ =>
    show k.val = if (4096 : Nat) = 1 then 0 else win0_2.index t 1 * 4096 + 1 * k.val
    rw [(idx2 t).2, if_neg (by decide)]; omega

/-- Entry r of the label block at grid point t is the label of feature row 256·t + r. -/
theorem label_block (hl : ∀ b : Fin 16384, m ((c.tc : Thread nD τ).loc main_arg1) (ix1 b) = BitVec.ofNat 32 (lb b).val)
    (t : Fin cfg0.N) (r : Fin 256) :
    (iblk m c 3 t : Vec Ideal S256x1 .i32) (ix2 r (0 : Fin 1)) = BitVec.ofNat 32 (lb (row (blockOf t) r)).val := by
  unfold iblk
  rw [View.read_apply]
  show V m c main_v0 _ = _
  refine (congrFun (V_v0 m c) _).trans ?_
  refine (shapeCast_apply _ _ _ (ix1 (row (blockOf t) r)) ?_).trans (hl _)
  rw [Shape.rowMajor_val_one, Shape.rowMajor_val_two]
  show 256 * t.val + r.val = (win0_3.index t 0 * 256 + 1 * r.val) * 1 + (win0_3.index t 1 * 1 + 1 * 0)
  rw [(idx3 t).1, (idx3 t).2]; omega

end Cert.KernelIdeal.Blocks

end
-- ==== Proof.CenterLossLaws.lean ====
/-
  Laws of the centre loss over the reals, and the passage of a finite real sum into the extended reals.

  `total_factored`: summing `dist b k = ‖f_b‖² + ‖c_k‖² − 2⟨f_b, c_k⟩` over all pairs needs no pair at all,
      ∑_b ∑_k dist b k = p · ∑_b ‖f_b‖² + n · ∑_k ‖c_k‖² − 2 · ∑_d (∑_b f_b,d) · (∑_k c_k,d),
  because ⟨·,·⟩ is bilinear: the double sum of inner products is the inner product of the two column sums.
  `intra_tiles`: the 16384 rows are 64 blocks of 256, and a sum over the rows is the sum of the blocks' sums.
-/
import proofs.«419607_j26620207301028_3_alg».proof.Proof.CenterLoss
import Mathlib.Algebra.BigOperators.Fin
import Mathlib.Algebra.BigOperators.Ring.Finset
import Mathlib.Logic.Equiv.Fin.Basic

noncomputable section

namespace Cert.CenterLoss

/-- A finite sum of reals, read in the extended reals, is the sum of the terms read there. -/
theorem coe_sum {ι : Type*} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- Bilinearity of the inner product: the sum of ⟨f_b, c_k⟩ over all pairs (b, k) is the inner product
    of the column sums ∑_b f_b and ∑_k c_k. -/
theorem cross_sum {n p : Nat} (f : Fin n → Fin 128 → ℝ) (c : Fin p → Fin 128 → ℝ) :
    ∑ b : Fin n, ∑ k : Fin p, ∑ d : Fin 128, f b d * c k d
      = ∑ d : Fin 128, (∑ b : Fin n, f b d) * (∑ k : Fin p, c k d) := by
  calc ∑ b : Fin n, ∑ k : Fin p, ∑ d : Fin 128, f b d * c k d
      = ∑ b : Fin n, ∑ d : Fin 128, ∑ k : Fin p, f b d * c k d :=
        Finset.sum_congr rfl fun b _ => Finset.sum_comm
    _ = ∑ d : Fin 128, ∑ b : Fin n, ∑ k : Fin p, f b d * c k d := Finset.sum_comm
    _ = ∑ d : Fin 128, (∑ b : Fin n, f b d) * (∑ k : Fin p, c k d) := by
        simp only [Finset.sum_mul_sum]

/-- All pairs at once: the pairwise sum in terms of the squared lengths and the two column sums. -/
theorem total_factored {n p : Nat} (f : Fin n → Fin 128 → ℝ) (c : Fin p → Fin 128 → ℝ) :
    total f c = ((p : ℝ) * (∑ b : Fin n, ∑ d : Fin 128, f b d * f b d)
        + (n : ℝ) * (∑ k : Fin p, ∑ d : Fin 128, c k d * c k d))
      - 2 * ∑ d : Fin 128, (∑ b : Fin n, f b d) * (∑ k : Fin p, c k d) := by
  unfold total dist sqn dotp
  simp only [Finset.sum_sub_distrib, Finset.sum_add_distrib, Finset.sum_const, Finset.card_univ,
    Fintype.card_fin, nsmul_eq_mul, ← Finset.mul_sum]
  rw [cross_sum]

/-- Every index below 16384 is uniquely 256 · t + r with t < 64 and r < 256, so a sum over the
    16384 rows is the iterated sum over the block t and the row r inside the block. -/
theorem sum_rows (g : Fin 16384 → ℝ) :
    ∑ b : Fin 16384, g b = ∑ t : Fin 64, ∑ r : Fin 256, g (row t r) := by
  have h := Fintype.sum_equiv (finProdFinEquiv (m := 64) (n := 256))
    (fun x : Fin 64 × Fin 256 => g (row x.1 x.2)) (fun b : Fin (64 * 256) => g b) (by
      rintro ⟨t, r⟩
      show g (row t r) = g (finProdFinEquiv (t, r))
      congr 1
      apply Fin.ext
      simp [row, finProdFinEquiv]
      omega)
  rw [Fintype.sum_prod_type] at h
  exact h.symm

/-- The sum over the 16384 rows is the sum over the 64 blocks of each block's 256 rows. -/
theorem intra_tiles (f : Fin 16384 → Fin 128 → ℝ) (c : Fin 4096 → Fin 128 → ℝ) (ℓ : Fin 16384 → Fin 4096) :
    intra f c ℓ = ∑ t : Fin 64, intra (tileF f t) c (tileL ℓ t) := by
  unfold intra
  rw [sum_rows]
  rfl

end Cert.CenterLoss

end
-- ==== Proof.HostTail.lean ====
/-
  The host operations after the kernel region, read over the reals.

  The region leaves one partial sum per core in a [2,1,1] array. After it the program forms
    I = 0 + (the two partial sums),
    T = (4096 · ∑ f² + 16384 · ∑ c²) − 2 · ∑_d (∑_b f_b,d) (∑_k c_k,d)   from the features f and the centres c,
  and returns ((2⁻¹⁵ · I) / ((T − I) + ε)) / 0.1, the three constants as the float words the program carries.
  Over real features and centres, 4096 · ∑ f² + 16384 · ∑ c² − 2 · ∑_d (∑_b f_b,d)(∑_k c_k,d) is the sum of the
  expanded squared distances of every feature from every centre (each ‖f_b‖² occurs once per centre, each ‖c_k‖² once
  per feature, and the inner products factor through the column sums), so the result is the centre loss of the two
  sums. The words of 4096, 16384 and 2 are evaluated; the three constants of the loss never are.
-/
import proofs.«419607_j26620207301028_3_alg».proof.Proof.Gen.KernelIdeal.Frame
import proofs.«419607_j26620207301028_3_alg».proof.Proof.CenterLoss
import proofs.«419607_j26620207301028_3_alg».proof.Proof.CenterLossLaws
import Idealize.ShloMosaic.PureOps.Ideal.Laws
import Idealize.ShloMosaic.Lib.ValueIdx
import Idealize.ShloMosaic.Lib.Pipeline.Value
import Idealize.ShloMosaic.Lib.StableHlo.Run

noncomputable section

namespace Cert.KernelIdeal.Tail

open Cert.KernelIdeal Cert.KernelIdeal.Gen Cert.CenterLoss Idealize.ShloMosaic Idealize.ShloMosaic.ValueIdx Idealize.ShloMosaic.TcCoe Idealize.SL.Sem

/-- The sum of the two per-core partial sums, from zero. -/
def tailI (out : FVec Ideal S2x1x1 .f32) : FVec Ideal S_ .f32 :=
  Host.reduceAdd (F := Ideal) out (constant (F := Ideal) S_ .f32 0x00000000#32) reducesTo_S2x1x1_S_d0_1_2 h_S_

/-- The sum of squares of every entry of the features. -/
def tailF2 (feat : FVec Ideal S16384x128 .f32) : FVec Ideal S_ .f32 :=
  Host.reduceAdd (F := Ideal) (mulf feat feat) (constant (F := Ideal) S_ .f32 0x00000000#32) reducesTo_S16384x128_S_d0_1 h_S_

/-- The sum of squares of every entry of the centres. -/
def tailC2 (cen : FVec Ideal S4096x128 .f32) : FVec Ideal S_ .f32 :=
  Host.reduceAdd (F := Ideal) (mulf cen cen) (constant (F := Ideal) S_ .f32 0x00000000#32) reducesTo_S4096x128_S_d0_1 h_S_

/-- The sum over the 128 columns of (column sum of the features) times (column sum of the centres). -/
def tailX (feat : FVec Ideal S16384x128 .f32) (cen : FVec Ideal S4096x128 .f32) : FVec Ideal S_ .f32 :=
  Host.reduceAdd (F := Ideal)
    (mulf (Host.reduceAdd (F := Ideal) feat (constant (F := Ideal) S_ .f32 0x00000000#32) reducesTo_S16384x128_S128_d0 h_S_)
          (Host.reduceAdd (F := Ideal) cen (constant (F := Ideal) S_ .f32 0x00000000#32) reducesTo_S4096x128_S128_d0 h_S_))
    (constant (F := Ideal) S_ .f32 0x00000000#32) reducesTo_S128_S_d0 h_S_

/-- Every feature against every centre, in factored form: 4096 times the features' squares plus 16384 times the
    centres' squares, less twice the column cross term. -/
def tailT (feat : FVec Ideal S16384x128 .f32) (cen : FVec Ideal S4096x128 .f32) : FVec Ideal S_ .f32 :=
  subf (addf (mulf (constant (F := Ideal) S_ .f32 0x45800000#32) (tailF2 feat))
             (mulf (constant (F := Ideal) S_ .f32 0x46800000#32) (tailC2 cen)))
       (mulf (constant (F := Ideal) S_ .f32 0x40000000#32) (tailX feat cen))

/-- The whole tail: the loss from the two sums, the three constants as the words the program carries. -/
def tail (feat : FVec Ideal S16384x128 .f32) (cen : FVec Ideal S4096x128 .f32) (out : FVec Ideal S2x1x1 .f32) : FVec Ideal S_ .f32 :=
  Host.divf
    (Host.divf (mulf (constant (F := Ideal) S_ .f32 0x38000000#32) (tailI out))
      (addf (subf (tailT feat cen) (tailI out)) (constant (F := Ideal) S_ .f32 0x358637BD#32)))
    (constant (F := Ideal) S_ .f32 0x3DCCCCCD#32)

/-! ## The words of the three numerals -/

/-- The word of 4096 = 2¹². -/
theorem word_4096 : Ideal.ofBits .f32 0x45800000#32 = ((4096 : ℝ) : EReal) := by
  simp [Ideal.ofBits, Ideal.ieee, -EReal.coe_mul]; norm_num

/-- The word of 16384 = 2¹⁴. -/
theorem word_16384 : Ideal.ofBits .f32 0x46800000#32 = ((16384 : ℝ) : EReal) := by
  simp [Ideal.ofBits, Ideal.ieee, -EReal.coe_mul]; norm_num

/-- The word of 2. -/
theorem word_2 : Ideal.ofBits .f32 0x40000000#32 = ((2 : ℝ) : EReal) := by
  simp [Ideal.ofBits, Ideal.ieee, -EReal.coe_mul]; norm_num

/-! ## Sums over index sets as sums over coordinates -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  exact (Equiv.sum_comp e.symm f).symm

/-- The index set of a [2,1,1] array has two elements. -/
theorem sum_idx211 {M : Type*} [AddCommMonoid M] (f : (⟨3, ![2, 1, 1]⟩ : Shape).Idx → M) :
    ∑ i, f i = f (ix3 (0 : Fin 2) (0 : Fin 1) (0 : Fin 1)) + f (ix3 (1 : Fin 2) (0 : Fin 1) (0 : Fin 1)) := by
  let e : (⟨3, ![2, 1, 1]⟩ : Shape).Idx ≃ Fin 2 :=
    ⟨fun i => i 0, fun a => ix3 a (0 : Fin 1) (0 : Fin 1),
      fun i => by
        funext d
        match d with
        | ⟨0, _⟩ => rfl
        | ⟨1, h1⟩ => exact Fin.ext (by have h : (i ⟨1, h1⟩).val < 1 := (i ⟨1, h1⟩).isLt; show (0 : ℕ) = (i ⟨1, h1⟩).val; omega)
        | ⟨2, h2⟩ => exact Fin.ext (by have h : (i ⟨2, h2⟩).val < 1 := (i ⟨2, h2⟩).isLt; show (0 : ℕ) = (i ⟨2, h2⟩).val; omega),
      fun _ => rfl⟩
  rw [← Equiv.sum_comp e.symm f, Fin.sum_univ_two]
  rfl

/-! ## The host's sums read at the ideal values -/

/-- A sum over every axis, from the zero word: the sum of every entry. -/
theorem reduce_all_apply {s : Shape} {axes : List (Fin s.rank)} (x : FVec Ideal s .f32) (h : s.ReducesTo axes S_) (j : S_.Idx) :
    Host.reduceAdd (F := Ideal) x (constant (F := Ideal) S_ .f32 0x00000000#32) h h_S_ j = ∑ i : s.Idx, x i := by
  show Ideal.hostReduceAdd h x (Ideal.ofBits .f32 0x00000000#32) j = _
  rw [Ideal.hostReduceAdd_total h (fun b => b.elim0), Ideal.ofBits_zero_f32, zero_add]

/-- A sum over the rows of the features, from the zero word, at column d: the column's sum. -/
theorem colsum_feat (x : FVec Ideal S16384x128 .f32) (h' : S16384x128.ReducesTo [0] S128) (d : Fin 128) :
    Host.reduceAdd (F := Ideal) x (constant (F := Ideal) S_ .f32 0x00000000#32) h' h_S_ (ix1 d) = ∑ k : Fin 16384, x (ix2 k d) := by
  have h : S16384x128.Reduces [0] S128 := by decide
  show Ideal.hostReduceAdd h' x (Ideal.ofBits .f32 0x00000000#32) (ix1 d) = _
  rw [Ideal.hostReduceAdd_single h' h, Ideal.ofBits_zero_f32, zero_add]
  refine Finset.sum_congr rfl fun k _ => congrArg x ?_
  funext a
  match a with
  | ⟨0, _⟩ => exact Fin.ext rfl
  | ⟨1, _⟩ => exact Fin.ext rfl

/-- The same for the centres. -/
theorem colsum_cen (x : FVec Ideal S4096x128 .f32) (h' : S4096x128.ReducesTo [0] S128) (d : Fin 128) :
    Host.reduceAdd (F := Ideal) x (constant (F := Ideal) S_ .f32 0x00000000#32) h' h_S_ (ix1 d) = ∑ k : Fin 4096, x (ix2 k d) := by
  have h : S4096x128.Reduces [0] S128 := by decide
  show Ideal.hostReduceAdd h' x (Ideal.ofBits .f32 0x00000000#32) (ix1 d) = _
  rw [Ideal.hostReduceAdd_single h' h, Ideal.ofBits_zero_f32, zero_add]
  refine Finset.sum_congr rfl fun k _ => congrArg x ?_
  funext a
  match a with
  | ⟨0, _⟩ => exact Fin.ext rfl
  | ⟨1, _⟩ => exact Fin.ext rfl

/-! ## The tail's pieces over real inputs -/

section Value

variable (feat : FVec Ideal S16384x128 .f32) (cen : FVec Ideal S4096x128 .f32) (out : FVec Ideal S2x1x1 .f32)
variable (fr : Fin 16384 → Fin 128 → ℝ) (cr : Fin 4096 → Fin 128 → ℝ) (a b : ℝ)

/-- The two partial sums add up. -/
theorem tailI_eq (h0 : out (ix3 (0 : Fin 2) (0 : Fin 1) (0 : Fin 1)) = ((a : ℝ) : EReal))
    (h1 : out (ix3 (1 : Fin 2) (0 : Fin 1) (0 : Fin 1)) = ((b : ℝ) : EReal)) :
    tailI out = fun _ => ((a + b : ℝ) : EReal) := by
  funext j
  unfold tailI
  rw [reduce_all_apply, sum_idx211, h0, h1, EReal.coe_add]

/-- The features' squares summed, as a real. -/
theorem tailF2_eq (hf : ∀ (i : Fin 16384) (d : Fin 128), feat (ix2 i d) = ((fr i d : ℝ) : EReal)) :
    tailF2 feat = fun _ => ((∑ i : Fin 16384, ∑ d : Fin 128, fr i d * fr i d : ℝ) : EReal) := by
  funext j
  unfold tailF2
  rw [reduce_all_apply, sum_idx2, coe_sum]
  refine Finset.sum_congr rfl fun i _ => ?_
  rw [coe_sum]
  refine Finset.sum_congr rfl fun d _ => ?_
  rw [mulf_apply, hf, EReal.coe_mul]

/-- The centres' squares summed, as a real. -/
theorem tailC2_eq (hc : ∀ (k : Fin 4096) (d : Fin 128), cen (ix2 k d) = ((cr k d : ℝ) : EReal)) :
    tailC2 cen = fun _ => ((∑ k : Fin 4096, ∑ d : Fin 128, cr k d * cr k d : ℝ) : EReal) := by
  funext j
  unfold tailC2
  rw [reduce_all_apply, sum_idx2, coe_sum]
  refine Finset.sum_congr rfl fun k _ => ?_
  rw [coe_sum]
  refine Finset.sum_congr rfl fun d _ => ?_
  rw [mulf_apply, hc, EReal.coe_mul]

/-- The column cross term, as a real. -/
theorem tailX_eq (hf : ∀ (i : Fin 16384) (d : Fin 128), feat (ix2 i d) = ((fr i d : ℝ) : EReal))
    (hc : ∀ (k : Fin 4096) (d : Fin 128), cen (ix2 k d) = ((cr k d : ℝ) : EReal)) :
    tailX feat cen = fun _ => ((∑ d : Fin 128, (∑ i : Fin 16384, fr i d) * (∑ k : Fin 4096, cr k d) : ℝ) : EReal) := by
  funext j
  unfold tailX
  rw [reduce_all_apply, sum_idx1, coe_sum]
  refine Finset.sum_congr rfl fun d _ => ?_
  rw [mulf_apply, colsum_feat, colsum_cen, EReal.coe_mul, coe_sum, coe_sum]
  exact congrArg₂ (fun x y : EReal => x * y) (Finset.sum_congr rfl fun i _ => hf i d) (Finset.sum_congr rfl fun k _ => hc k d)

/-- The factored form is every feature against every centre. -/
theorem tailT_eq (hf : ∀ (i : Fin 16384) (d : Fin 128), feat (ix2 i d) = ((fr i d : ℝ) : EReal))
    (hc : ∀ (k : Fin 4096) (d : Fin 128), cen (ix2 k d) = ((cr k d : ℝ) : EReal)) :
    tailT feat cen = fun _ => ((total fr cr : ℝ) : EReal) := by
  funext j
  unfold tailT
  rw [subf_apply, addf_apply, mulf_apply, mulf_apply, mulf_apply, constant_apply, constant_apply, constant_apply,
    word_4096, word_16384, word_2, tailF2_eq feat fr hf, tailC2_eq cen cr hc, tailX_eq feat cen fr cr hf hc,
    total_factored fr cr]
  simp only [Nat.cast_ofNat, EReal.coe_sub, EReal.coe_add, EReal.coe_mul]

/-- The tail of real inputs is the loss of the two real sums. -/
theorem tail_eq_loss (hf : ∀ (i : Fin 16384) (d : Fin 128), feat (ix2 i d) = ((fr i d : ℝ) : EReal))
    (hc : ∀ (k : Fin 4096) (d : Fin 128), cen (ix2 k d) = ((cr k d : ℝ) : EReal))
    (h0 : out (ix3 (0 : Fin 2) (0 : Fin 1) (0 : Fin 1)) = ((a : ℝ) : EReal))
    (h1 : out (ix3 (1 : Fin 2) (0 : Fin 1) (0 : Fin 1)) = ((b : ℝ) : EReal)) :
    tail feat cen out = loss ((a + b : ℝ) : EReal) ((total fr cr : ℝ) : EReal) := by
  unfold tail loss
  rw [tailI_eq out a b h0 h1, tailT_eq feat cen fr cr hf hc]

end Value

variable (m : (ℓ : Loc nD τ sig) → Buf (Elt Ideal) ℓ)

/-- After the region the result array holds what the region's last point left there. -/
theorem read_v5 (c : Dev nD) :
    Pipeline.withArrays (cfgs 0).spec c (V0 m c) (fun w => (dats m 0 c).arrAt w (cfgs 0).N) (Proc.devRef .tc main_v5)
      = (dats m 0 c).arrAt 4 cfg0.N :=
  Pipeline.withArrays_arr spec0 launch0.win.arr_inj c _ _ 4

/-- The features are an input of the region: it leaves them as launched. -/
theorem read_arg0 (c : Dev nD) :
    Pipeline.withArrays (cfgs 0).spec c (V0 m c) (fun w => (dats m 0 c).arrAt w (cfgs 0).N) (Proc.devRef .tc main_arg0)
      = m ((c.tc : Thread nD τ).loc main_arg0) :=
  (Pipeline.withArrays_arr spec0 launch0.win.arr_inj c _ _ 0).trans
    (((dats m 0 c).arrAt_in 0 rfl _).trans ((A_eq m c 0).trans (V_main_arg0 m c)))

/-- The centres are no array of the region: they stay as launched. -/
theorem read_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans
    (V_main_arg2 m c)

/-- The host operations after the region compute the tail function of the launched features, the launched centres
    and the region's result array. -/
theorem tail_run (c : Dev nD) :
    Pipeline.afterTail₀ cfgs (dats m) 0 (V0 m) [hostOps1] c main_v24
      = tail (m ((c.tc : Thread nD τ).loc main_arg0)) (m ((c.tc : Thread nD τ).loc main_arg2)) ((dats m 0 c).arrAt 4 cfg0.N) := by
  unfold Pipeline.afterTail₀
  simp only [List.flatten_cons, List.flatten_nil, List.append_nil]
  show StableHlo.after hostOps1 _ (Proc.devRef .tc main_v24) = _
  after_results_simp
  rw [read_v5 m c, read_arg0 m c, read_arg2 m c]
  rfl

/-! ## The tail of the program -/

/-- The program's result after the region: the loss of the two per-core partial sums added and of every feature
    against every centre, for real features and centres. -/
theorem tail_value (c : Dev nD) (fr : Fin 16384 → Fin 128 → ℝ) (cr : Fin 4096 → Fin 128 → ℝ) (a b : ℝ)
    (hf : ∀ (i : Fin 16384) (d : Fin 128), m ((c.tc : Thread nD τ).loc main_arg0) (ix2 i d) = ((fr i d : ℝ) : EReal))
    (hc : ∀ (k : Fin 4096) (d : Fin 128), m ((c.tc : Thread nD τ).loc main_arg2) (ix2 k d) = ((cr k d : ℝ) : EReal))
    (h0 : (dats m 0 c).arrAt 4 cfg0.N (ix3 (0 : Fin 2) (0 : Fin 1) (0 : Fin 1)) = ((a : ℝ) : EReal))
    (h1 : (dats m 0 c).arrAt 4 cfg0.N (ix3 (1 : Fin 2) (0 : Fin 1) (0 : Fin 1)) = ((b : ℝ) : EReal)) :
    Pipeline.afterTail₀ cfgs (dats m) 0 (V0 m) [hostOps1] c main_v24
      = loss ((a + b : ℝ) : EReal) ((total fr cr : ℝ) : EReal) :=
  (tail_run m c).trans
    (tail_eq_loss (m ((c.tc : Thread nD τ).loc main_arg0)) (m ((c.tc : Thread nD τ).loc main_arg2))
      ((dats m 0 c).arrAt 4 cfg0.N) fr cr a b hf hc h0 h1)

end Cert.KernelIdeal.Tail

end
-- ==== Proof.KernelRun.lean ====
/-
  The idealized kernel program's run, read as a value. On finite features `fr`, finite centres `cr` and labels `lb` in
  range, every block adds its ∑_r ‖f_r − c_(label r)‖² to its core's word (one step of the body, on the point's four
  blocks), so the result array holds the two cores' halves of `intra`; the host tail adds them, forms `total` from
  the arguments in its factored form, and ends at the loss of the two sums.
-/
import proofs.«419607_j26620207301028_3_alg».proof.Proof.Final
import proofs.«419607_j26620207301028_3_alg».proof.Proof.TileValue
import proofs.«419607_j26620207301028_3_alg».proof.Proof.Blocks
import proofs.«419607_j26620207301028_3_alg».proof.Proof.HostTail
import proofs.«419607_j26620207301028_3_alg».proof.Proof.CenterLossLaws

noncomputable section

open Idealize.ShloMosaic Idealize.ShloMosaic.TcCoe Idealize.SL.Sem Idealize.ShloMosaic.ValueIdx

namespace Cert.KernelIdeal.Run

open Cert.KernelIdeal Cert.KernelIdeal.Gen Cert.KernelIdeal.Accum Cert.CenterLoss

/-- The value of block `n` of the 64: its rows' squared distances from their own centres, summed. -/
def blockVal (fr : Fin 16384 → Fin 128 → ℝ) (cr : Fin 4096 → Fin 128 → ℝ) (lb : Fin 16384 → Fin 4096) (n : ℕ) : ℝ :=
  if h : n < 64 then intra (tileF fr ⟨n, h⟩) cr (tileL lb ⟨n, h⟩) else 0

/-- The two cores' sums together are the sum over all 64 blocks. -/
theorem sum_cores (g : ℕ → ℝ) : partialSum g 31 + partialSum g 63 = ∑ j ∈ Finset.range 64, g j := by
  unfold partialSum
  have e1 : (31 : ℕ) % 32 + 1 = 32 := by norm_num
  have e3 : (31 : ℕ) - 31 % 32 = 0 := by norm_num
  have e4 : (63 : ℕ) - 63 % 32 = 32 := by norm_num
  rw [e1, e3, e4, show (64 : ℕ) = 32 + 32 from rfl, Finset.sum_range_add]
  simp only [zero_add]

/-- The blocks' values sum to `intra`. -/
theorem sum_blocks (fr : Fin 16384 → Fin 128 → ℝ) (cr : Fin 4096 → Fin 128 → ℝ) (lb : Fin 16384 → Fin 4096) :
    ∑ j ∈ Finset.range 64, blockVal fr cr lb j = intra fr cr lb := by
  rw [intra_tiles, ← Fin.sum_univ_eq_sum_range (fun n => blockVal fr cr lb n) 64]
  refine Finset.sum_congr rfl fun t _ => ?_
  unfold blockVal
  rw [dif_pos t.isLt]

variable (m : (ℓ : Loc nD τ sig) → Buf (Elt Ideal) ℓ) (ρ : Dev nD → PrngReg)

/-- One step of the body at point `t`: it adds block `t`'s value to a finite word. -/
theorem step_value (c : Dev nD) (fr : Fin 16384 → Fin 128 → ℝ) (cr : Fin 4096 → Fin 128 → ℝ) (lb : Fin 16384 → Fin 4096)
    (hf : ∀ (b : Fin 16384) (d : Fin 128), m ((c.tc : Thread nD τ).loc main_arg0) (ix2 b d) = ((fr b d : ℝ) : EReal))
    (hc : ∀ (k : Fin 4096) (d : Fin 128), m ((c.tc : Thread nD τ).loc main_arg2) (ix2 k d) = ((cr k d : ℝ) : EReal))
    (hl : ∀ b : Fin 16384, m ((c.tc : Thread nD τ).loc main_arg1) (ix1 b) = BitVec.ofNat 32 (lb b).val)
    (t : Fin cfg0.N) (p : ℝ) (prev : Vec Ideal S1x1x1 .f32) (hp : prev o = ((p : ℝ) : EReal)) :
    step m c t prev o = ((p + blockVal fr cr lb t.val : ℝ) : EReal) := by
  have ht : t.val < 64 := lt_of_lt_of_eq t.isLt N_0
  unfold blockVal
  rw [dif_pos ht]
  exact Tile.tile_value (tileF fr ⟨t.val, ht⟩) cr (tileL lb ⟨t.val, ht⟩) p (iblk m c 0 t) (iblk m c 1 t) (iblk m c 2 t)
    (iblk m c 3 t) prev (fun r d => Blocks.feat_block m c fr hf t r d) (fun k d => Blocks.centers_block m c cr hc t k d)
    (fun k => Blocks.csq_block m c cr hc t k) (fun r => Blocks.label_block m c lb hl t r) hp

/-- The run: the result is the loss of `intra` and `total`, the arguments are unchanged. -/
theorem run (fr : Dev nD → Fin 16384 → Fin 128 → ℝ) (cr : Dev nD → Fin 4096 → Fin 128 → ℝ) (lb : Dev nD → Fin 16384 → Fin 4096)
    (hf : ∀ (c : Dev nD) (b : Fin 16384) (d : Fin 128), m ((c.tc : Thread nD τ).loc main_arg0) (ix2 b d) = ((fr c b d : ℝ) : EReal))
    (hc : ∀ (c : Dev nD) (k : Fin 4096) (d : Fin 128), m ((c.tc : Thread nD τ).loc main_arg2) (ix2 k d) = ((cr c k d : ℝ) : EReal))
    (hl : ∀ (c : Dev nD) (b : Fin 16384), m ((c.tc : Thread nD τ).loc main_arg1) (ix1 b) = BitVec.ofNat 32 (lb c b).val) :
    θ_run defs (onTc (τ := τ) (main (F := Ideal))) ⟨m, fun _ => 0, ρ⟩ fun r => ∀ c : Dev nD,
      r.2.mem ((c.tc : Thread nD τ).loc main_v24)
          = loss ((intra (fr c) (cr c) (lb c) : ℝ) : EReal) ((total (fr c) (cr c) : ℝ) : EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨?_, ?_, ?_, ?_⟩) (run_main m ρ)
  · refine ((h c).2 main_v24 (Pipeline.mem_restRefs_of main_v24 (by decide) (by decide))).trans ?_
    have hfin := Final.final_out m c (blockVal (fr c) (cr c) (lb c))
      (step_value m c (fr c) (cr c) (lb c) (hf c) (hc c) (hl c)) Tile.reset_value
    have h0 : (dats m 0 c).arrAt 4 cfg0.N (ix3 (0 : Fin 2) (0 : Fin 1) (0 : Fin 1))
        = ((partialSum (blockVal (fr c) (cr c) (lb c)) 31 : ℝ) : EReal) :=
      congrFun hfin (ix3 (0 : Fin 2) (0 : Fin 1) (0 : Fin 1))
    have h1 : (dats m 0 c).arrAt 4 cfg0.N (ix3 (1 : Fin 2) (0 : Fin 1) (0 : Fin 1))
        = ((partialSum (blockVal (fr c) (cr c) (lb c)) 63 : ℝ) : EReal) :=
      congrFun hfin (ix3 (1 : Fin 2) (0 : Fin 1) (0 : Fin 1))
    rw [Tail.tail_value m c (fr c) (cr c) _ _ (hf c) (hc c) h0 h1, sum_cores, sum_blocks]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.Run

end
-- ==== Proof.RefValue.lean ====
/-
  The reference's result is the centre loss.

  For real features f : [16384, 128], centres c : [4096, 128] and labels ℓ : [16384] → [0, 4096), the reference forms on the
  whole [16384, 4096] slab
      D[b, k] = (‖f_b‖² + ‖c_k‖²) − 2 · ⟨f_b, c_k⟩,
  the two squared lengths as row sums started at zero, the inner product as a contraction over the 128 coordinates, the
  factor two as a float word that reads as the real 2. Every entry is a finite real, so D[b, k] is `dist f c b k` read in
  the extended reals.

  It then picks S[b] = D[b, ℓ b]. The pick first adds 4096 to a negative index (a label is never negative: the index stays),
  tests 0 ≤ index ≤ 4095 (true of every label: the conjunction over the unit axis is one, and the fallback value is never
  taken), and gathers along the centre axis with the row as a batching axis: row b reads the slab at (b, index of row b),
  the index read signed and clamped into [0, 4095], a clamp that is idle below 4096.

  Last I = 0 + ∑_b S[b] and T = 0 + ∑_{b,k} D[b, k] are `intra` and `total`, and the three closing operations
  ((2⁻¹⁵ · I) / ((T − I) + ε)) / 0.1 are, word for word, `loss I T`.
-/
import proofs.«419607_j26620207301028_3_alg».proof.Proof.RefRead
import proofs.«419607_j26620207301028_3_alg».proof.Proof.CenterLoss
import proofs.«419607_j26620207301028_3_alg».proof.Proof.CenterLossLaws
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.CenterLoss Idealize.ShloMosaic Idealize.ShloMosaic.ValueIdx Idealize.ShloMosaic.TcCoe Idealize.SL.Sem

/-- The word 0x40000000 is the real two. -/
theorem ofBits_two_f32 : Ideal.ofBits .f32 0x40000000#32 = ((2 : ℝ) : EReal) := by
  simp [Ideal.ofBits, Ideal.ieee, -EReal.coe_mul]; norm_num

/-- The squared length of feature row b, as the reference's row sum forms it. -/
theorem rowsq_f (x0 : (⟨S16384x128, .f32⟩ : BufTy).Contents (Elt Ideal)) (fr : Fin 16384 → Fin 128 → ℝ)
    (hf : ∀ (b : Fin 16384) (d : Fin 128), x0 (ix2 b d) = ((fr b d : ℝ) : EReal)) (b : Fin 16384) :
    ReadP.val_main_v1 (F := Ideal) x0 (ix1 b) = ((sqn fr b : ℝ) : EReal) := by
  rw [ReadP.val_main_v1_apply, ReadP.val_main_cst_apply]
  show Ideal.ofBits .f32 0x00000000#32 + _ = _
  rw [Ideal.ofBits_zero_f32, zero_add]
  unfold sqn
  rw [coe_sum]
  refine Finset.sum_congr rfl fun d _ => ?_
  rw [ReadP.val_main_v0_apply]
  have e : ReadP.idx_main_v1 (ix1 b) d = ix2 b d := funext fun a => Fin.ext (by match a with | ⟨0, _⟩ => rfl | ⟨1, _⟩ => rfl)
  rw [e, hf b d]
  show ((fr b d : ℝ) : EReal) * ((fr b d : ℝ) : EReal) = _
  rw [← EReal.coe_mul]

/-- The squared length of centre row k, as the reference's row sum forms it. -/
theorem rowsq_c (x2 : (⟨S4096x128, .f32⟩ : BufTy).Contents (Elt Ideal)) (cr : Fin 4096 → Fin 128 → ℝ)
    (hc : ∀ (k : Fin 4096) (d : Fin 128), x2 (ix2 k d) = ((cr k d : ℝ) : EReal)) (k : Fin 4096) :
    ReadP.val_main_v4 (F := Ideal) x2 (ix1 k) = ((sqn cr k : ℝ) : EReal) := by
  rw [ReadP.val_main_v4_apply, ReadP.val_main_cst_0_apply]
  show Ideal.ofBits .f32 0x00000000#32 + _ = _
  rw [Ideal.ofBits_zero_f32, zero_add]
  unfold sqn
  rw [coe_sum]
  refine Finset.sum_congr rfl fun d _ => ?_
  rw [ReadP.val_main_v3_apply]
  have e : ReadP.idx_main_v4 (ix1 k) d = ix2 k d := funext fun a => Fin.ext (by match a with | ⟨0, _⟩ => rfl | ⟨1, _⟩ => rfl)
  rw [e, hc k d]
  show ((cr k d : ℝ) : EReal) * ((cr k d : ℝ) : EReal) = _
  rw [← EReal.coe_mul]

/-- The inner product of feature b with centre k, as the reference's contraction forms it. -/
theorem cross (x0 : (⟨S16384x128, .f32⟩ : BufTy).Contents (Elt Ideal)) (x2 : (⟨S4096x128, .f32⟩ : BufTy).Contents (Elt Ideal))
    (fr : Fin 16384 → Fin 128 → ℝ) (cr : Fin 4096 → Fin 128 → ℝ)
    (hf : ∀ (b : Fin 16384) (d : Fin 128), x0 (ix2 b d) = ((fr b d : ℝ) : EReal))
    (hc : ∀ (k : Fin 4096) (d : Fin 128), x2 (ix2 k d) = ((cr k d : ℝ) : EReal)) (b : Fin 16384) (k : Fin 4096) :
    ReadP.val_main_v6 (F := Ideal) x0 x2 (ix2 b k) = ((dotp fr cr b k : ℝ) : EReal) := by
  rw [ReadP.val_main_v6_apply]
  unfold dotp
  rw [coe_sum]
  refine Finset.sum_congr rfl fun d _ => ?_
  have el : ReadP.lidx_main_v6 (ix2 b k) d = ix2 b d := funext fun a => Fin.ext (by match a with | ⟨0, _⟩ => rfl | ⟨1, _⟩ => rfl)
  have er : ReadP.ridx_main_v6 (ix2 b k) d = ix2 k d := funext fun a => Fin.ext (by match a with | ⟨0, _⟩ => rfl | ⟨1, _⟩ => rfl)
  rw [el, er, hf b d, hc k d, ← EReal.coe_mul]

/-- The slab entry (b, k) is the expanded squared distance of feature b from centre k. -/
theorem slab (x0 : (⟨S16384x128, .f32⟩ : BufTy).Contents (Elt Ideal)) (x2 : (⟨S4096x128, .f32⟩ : BufTy).Contents (Elt Ideal))
    (fr : Fin 16384 → Fin 128 → ℝ) (cr : Fin 4096 → Fin 128 → ℝ)
    (hf : ∀ (b : Fin 16384) (d : Fin 128), x0 (ix2 b d) = ((fr b d : ℝ) : EReal))
    (hc : ∀ (k : Fin 4096) (d : Fin 128), x2 (ix2 k d) = ((cr k d : ℝ) : EReal)) (b : Fin 16384) (k : Fin 4096) :
    ReadP.val_main_v12 (F := Ideal) x0 x2 (ix2 b k) = ((dist fr cr b k : ℝ) : EReal) := by
  rw [ReadP.val_main_v12_apply, ReadP.val_main_v9_apply, ReadP.val_main_v11_apply, ReadP.val_main_v7_apply,
    ReadP.val_main_v2_apply, ReadP.val_main_v8_apply, ReadP.val_main_v5_apply, ReadP.val_main_v10_apply,
    ReadP.val_main_cst_1_apply]
  have e1 : ReadP.idx_main_v2 (ReadP.idx_main_v7 (ix2 b k)) = ix1 b := funext fun a => Fin.ext (by match a with | ⟨0, _⟩ => rfl)
  have e2 : ReadP.idx_main_v5 (ReadP.idx_main_v8 (ix2 b k)) = ix1 k := funext fun a => Fin.ext (by match a with | ⟨0, _⟩ => rfl)
  rw [e1, e2, rowsq_f x0 fr hf b, rowsq_c x2 cr hc k, cross x0 x2 fr cr hf hc b k]
  show (((sqn fr b : ℝ) : EReal) + ((sqn cr k : ℝ) : EReal)) - Ideal.ofBits .f32 0x40000000#32 * ((dotp fr cr b k : ℝ) : EReal) = _
  rw [ofBits_two_f32, ← EReal.coe_add, ← EReal.coe_mul, ← EReal.coe_sub]
  rfl

/-- A label below 4096, written as a 32-bit word, reads back signed as itself. -/
theorem toInt_label (n : Nat) (hn : n < 4096) : (BitVec.ofNat 32 n).toInt = (n : Int) := by
  have h1 : (BitVec.ofNat 32 n).toNat = n := by rw [BitVec.toNat_ofNat]; omega
  rw [BitVec.toInt_eq_toNat_of_lt (by rw [h1]; omega), h1]

/-- The label of row b after the correction for negative indices: unchanged, a label being non-negative. -/
theorem norm_idx (x1 : (⟨S16384, .i32⟩ : BufTy).Contents (Elt Ideal)) (lb : Fin 16384 → Fin 4096)
    (hl : ∀ b : Fin 16384, x1 (ix1 b) = BitVec.ofNat 32 (lb b).val) (b : Fin 16384) :
    ReadP.val_main_call0_v4 (F := Ideal) x1 (ix2 b (0 : Fin 1)) = BitVec.ofNat 32 (lb b).val := by
  rw [ReadP.val_main_call0_v4_apply, ReadP.val_main_call0_v1_apply, ReadP.val_main_v13_apply,
    ReadP.val_main_call0_v0_apply, ReadP.val_main_call0_c_apply]
  have e : ReadP.idx_main_v13 (ix2 b (0 : Fin 1)) = ix1 b := funext fun a => Fin.ext (by match a with | ⟨0, _⟩ => rfl)
  rw [e, hl b]
  have h0 : IntOp.cmpi .slt (BitVec.ofNat 32 (lb b).val) 0#32 = 0#1 := by
    refine eq_zero_of_ne_one fun h => ?_
    rw [IntOp.cmpi_slt, toInt_label _ (lb b).isLt] at h
    have hz : (0#32 : BitVec 32).toInt = 0 := by decide
    rw [hz] at h
    omega
  rw [h0, select_zero]

/-- The same label, seen through the reshape that appends a unit axis. -/
theorem start_idx (x1 : (⟨S16384, .i32⟩ : BufTy).Contents (Elt Ideal)) (lb : Fin 16384 → Fin 4096)
    (hl : ∀ b : Fin 16384, x1 (ix1 b) = BitVec.ofNat 32 (lb b).val) (b : Fin 16384) :
    ReadP.val_main_call0_v5 (F := Ideal) x1 (ix3 b (0 : Fin 1) (0 : Fin 1)) = BitVec.ofNat 32 (lb b).val := by
  rw [ReadP.val_main_call0_v5_apply]
  have e : ReadP.idx_main_call0_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  rw [e, norm_idx x1 lb hl b]

/-- Every label passes the range test 0 ≤ idx ≤ 4095. -/
theorem in_range (x1 : (⟨S16384, .i32⟩ : BufTy).Contents (Elt Ideal)) (lb : Fin 16384 → Fin 4096)
    (hl : ∀ b : Fin 16384, x1 (ix1 b) = BitVec.ofNat 32 (lb b).val) (i : S16384x1x1.Idx) :
    ReadP.val_main_call0_v11 (F := Ideal) x1 i = 1#1 := by
  obtain ⟨b, p, q, rfl⟩ : ∃ (b : Fin 16384) (p q : Fin 1), i = ix3 b p q := ⟨i 0, i 1, i 2, eq_ix3 i⟩
  obtain rfl : p = 0 := Subsingleton.elim _ _
  obtain rfl : q = 0 := Subsingleton.elim _ _
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply, start_idx x1 lb hl b]
  rw [IntOp.andi_eq_one, IntOp.cmpi_sge, IntOp.cmpi_sle, toInt_label _ (lb b).isLt]
  have hz : (0#32 : BitVec 32).toInt = 0 := by decide
  have hm : (4095#32 : BitVec 32).toInt = 4095 := by decide
  rw [hz, hm]
  have := (lb b).isLt
  omega

/-- A conjunction of ones, started at one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- The conjunction of the range test over the unit axis is one at every row. -/
theorem mask_one (x1 : (⟨S16384, .i32⟩ : BufTy).Contents (Elt Ideal)) (lb : Fin 16384 → Fin 4096)
    (hl : ∀ b : Fin 16384, x1 (ix1 b) = BitVec.ofNat 32 (lb b).val) (j : S16384x1.Idx) :
    ReadP.val_main_call0_v12 (F := Ideal) x1 j = 1#1 := by
  unfold ReadP.val_main_call0_v12
  rw [Host.reduce_eq_foldl, ReadP.val_main_call0_c_3_apply]
  exact foldl_andi_ones _ (in_range x1 lb hl) _

/-- The gather's dimension numbers: operand [16384, 4096], start indices [16384, 1, 1], result [16384, 1]; the row axis is a
    batching axis on both sides, the centre axis is collapsed and is the one the start index addresses. -/
abbrev gd : GatherDims S16384x4096 S16384x1x1 S16384x1 := gather_S16384x4096_S16384x1x1_S16384x1_n_1_0_0_1_2_11

/-- The gather along the centre axis with the row as batching axis: row b reads the slab at
    (b, start index of row b, read signed and clamped into [0, 4095]). -/
theorem gather_row {α : Type} (D : S16384x4096.Idx → α) (idx : IVec S16384x1x1 32) (b : Fin 16384) :
    Host.gather gd D idx (ix2 b (0 : Fin 1))
      = D (ix2 b (⟨min (idx (ix3 b (0 : Fin 1) (0 : Fin 1))).toInt.toNat 4095, by omega⟩ : Fin 4096)) := by
  unfold Host.gather
  refine congrArg D (funext fun a => Fin.ext ?_)
  match a with
  | ⟨0, _⟩ =>
    show gd.start (ix2 b (0 : Fin 1)) idx 0 + gd.batchCoord (ix2 b (0 : Fin 1)) 0 + gd.offCoord (ix2 b (0 : Fin 1)) 0 = b.val
    rw [GatherDims.start_batching _ _ _ _ (show (0 : Fin 2) ∈ gd.operandBatchingDims from List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gd.operandBatchingDims from List.mem_singleton.mpr rfl)]
    rfl
  | ⟨1, _⟩ =>
    show gd.start (ix2 b (0 : Fin 1)) idx 1 + gd.batchCoord (ix2 b (0 : Fin 1)) 1 + gd.offCoord (ix2 b (0 : Fin 1)) 1
      = min (idx (ix3 b (0 : Fin 1) (0 : Fin 1))).toInt.toNat 4095
    rw [GatherDims.batchCoord_eq_zero _ _ _ (show (1 : Fin 2) ∉ gd.operandBatchingDims by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gd.startIndexMap from List.mem_singleton.mpr rfl)]
    have hsi : gd.siIdx (ix2 b (0 : Fin 1)) ⟨List.idxOf (1 : Fin 2) gd.startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- With the start index of row b the word of a label k below 4096, the clamp is idle and row b reads the slab at (b, k). -/
theorem gather_row_label {α : Type} (D : S16384x4096.Idx → α) (idx : IVec S16384x1x1 32) (b : Fin 16384) (k : Fin 4096)
    (hk : idx (ix3 b (0 : Fin 1) (0 : Fin 1)) = BitVec.ofNat 32 k.val) :
    Host.gather gd D idx (ix2 b (0 : Fin 1)) = D (ix2 b k) := by
  rw [gather_row]
  refine congrArg D (congrArg (ix2 b) (Fin.ext ?_))
  show min (idx (ix3 b (0 : Fin 1) (0 : Fin 1))).toInt.toNat 4095 = k.val
  rw [hk, toInt_label _ k.isLt]
  have := k.isLt
  omega

/-- The picked entry of row b: the slab at the row's own centre, the expanded squared distance of feature b from the
    centre its label names. -/
theorem picked (x0 : (⟨S16384x128, .f32⟩ : BufTy).Contents (Elt Ideal)) (x1 : (⟨S16384, .i32⟩ : BufTy).Contents (Elt Ideal))
    (x2 : (⟨S4096x128, .f32⟩ : BufTy).Contents (Elt Ideal))
    (fr : Fin 16384 → Fin 128 → ℝ) (cr : Fin 4096 → Fin 128 → ℝ) (lb : Fin 16384 → Fin 4096)
    (hf : ∀ (b : Fin 16384) (d : Fin 128), x0 (ix2 b d) = ((fr b d : ℝ) : EReal))
    (hc : ∀ (k : Fin 4096) (d : Fin 128), x2 (ix2 k d) = ((cr k d : ℝ) : EReal))
    (hl : ∀ b : Fin 16384, x1 (ix1 b) = BitVec.ofNat 32 (lb b).val) (b : Fin 16384) :
    ReadP.val_main_v14 (F := Ideal) x0 x1 x2 (ix2 b (0 : Fin 1)) = ((dist fr cr b (lb b) : ℝ) : EReal) := by
  rw [ReadP.val_main_v14_apply, mask_one x1 lb hl, select_one]
  unfold ReadP.val_main_call0_v13
  refine (gather_row_label _ _ b (lb b) (start_idx x1 lb hl b)).trans ?_
  exact slab x0 x2 fr cr hf hc b (lb b)

/-- The first sum: zero plus the picked distances over all rows is the intra sum. -/
theorem intra_value (x0 : (⟨S16384x128, .f32⟩ : BufTy).Contents (Elt Ideal)) (x1 : (⟨S16384, .i32⟩ : BufTy).Contents (Elt Ideal))
    (x2 : (⟨S4096x128, .f32⟩ : BufTy).Contents (Elt Ideal))
    (fr : Fin 16384 → Fin 128 → ℝ) (cr : Fin 4096 → Fin 128 → ℝ) (lb : Fin 16384 → Fin 4096)
    (hf : ∀ (b : Fin 16384) (d : Fin 128), x0 (ix2 b d) = ((fr b d : ℝ) : EReal))
    (hc : ∀ (k : Fin 4096) (d : Fin 128), x2 (ix2 k d) = ((cr k d : ℝ) : EReal))
    (hl : ∀ b : Fin 16384, x1 (ix1 b) = BitVec.ofNat 32 (lb b).val) (i : S_.Idx) :
    ReadP.val_main_v15 (F := Ideal) x0 x1 x2 i = ((intra fr cr lb : ℝ) : EReal) := by
  rw [ReadP.val_main_v15_apply, ReadP.val_main_cst_2_apply]
  show Ideal.ofBits .f32 0x00000000#32 + _ = _
  rw [Ideal.ofBits_zero_f32, zero_add, sum_idx2]
  unfold intra
  rw [coe_sum]
  refine Finset.sum_congr rfl fun b _ => ?_
  rw [Fin.sum_univ_one]
  exact picked x0 x1 x2 fr cr lb hf hc hl b

/-- The second sum: zero plus the whole slab is the sum over all pairs. -/
theorem total_value (x0 : (⟨S16384x128, .f32⟩ : BufTy).Contents (Elt Ideal)) (x2 : (⟨S4096x128, .f32⟩ : BufTy).Contents (Elt Ideal))
    (fr : Fin 16384 → Fin 128 → ℝ) (cr : Fin 4096 → Fin 128 → ℝ)
    (hf : ∀ (b : Fin 16384) (d : Fin 128), x0 (ix2 b d) = ((fr b d : ℝ) : EReal))
    (hc : ∀ (k : Fin 4096) (d : Fin 128), x2 (ix2 k d) = ((cr k d : ℝ) : EReal)) (i : S_.Idx) :
    ReadP.val_main_v16 (F := Ideal) x0 x2 i = ((total fr cr : ℝ) : EReal) := by
  rw [ReadP.val_main_v16_apply, ReadP.val_main_cst_3_apply]
  show Ideal.ofBits .f32 0x00000000#32 + _ = _
  rw [Ideal.ofBits_zero_f32, zero_add, sum_idx2]
  unfold total
  rw [coe_sum]
  refine Finset.sum_congr rfl fun b _ => ?_
  rw [coe_sum]
  exact Finset.sum_congr rfl fun k _ => slab x0 x2 fr cr hf hc b k

/-- The reference program's result, at the ideal instance, is the centre loss of the real features, centres and labels. -/
theorem ref_value (m : (ℓ : Loc nD τ sig) → Buf (Elt Ideal) ℓ) (c : Dev nD)
    (fr : Fin 16384 → Fin 128 → ℝ) (cr : Fin 4096 → Fin 128 → ℝ) (lb : Fin 16384 → Fin 4096)
    (hf : ∀ (b : Fin 16384) (d : Fin 128), m ((c.tc : Thread nD τ).loc main_arg0) (ix2 b d) = ((fr b d : ℝ) : EReal))
    (hc : ∀ (k : Fin 4096) (d : Fin 128), m ((c.tc : Thread nD τ).loc main_arg2) (ix2 k d) = ((cr k d : ℝ) : EReal))
    (hl : ∀ b : Fin 16384, m ((c.tc : Thread nD τ).loc main_arg1) (ix1 b) = BitVec.ofNat 32 (lb b).val) :
    Cert.ReferenceIdeal.ValueP.res_main_v21 (F := Ideal) m c
      = loss ((intra fr cr lb : ℝ) : EReal) ((total fr cr : ℝ) : EReal) := by
  rw [ReadP.val_main_v21_eq]
  funext i
  rw [ReadP.val_main_v21_apply, ReadP.val_main_v20_apply, ReadP.val_main_v18_apply, ReadP.val_main_v19_apply,
    ReadP.val_main_v17_apply,
    intra_value _ _ _ fr cr lb hf hc hl i, total_value _ _ fr cr hf hc i]
  rfl

end Cert.ReferenceIdeal.RefValue

end
-- ==== Proof.lean ====
/- The certificate of the contrastive centre loss: `Cert.Claim`.

   Both programs compute, from features `f`, centres `c` and labels `ℓ`,
     loss = (2⁻¹⁵ · intra) / ((total − intra) + ε) / 0.1,   intra = ∑_b ‖f_b − c_(ℓ b)‖²,   total = ∑_b ∑_k ‖f_b − c_k‖²,
   each squared distance in the expanded form ‖f_b‖² + ‖c_k‖² − 2⟨f_b, c_k⟩. The reference forms the whole
   [16384, 4096] slab of distances, takes each row's entry at its label and sums both. The kernel never forms the slab:
   `total` factors through the squared lengths and the two column sums (bilinearity of the inner product), and `intra` is
   accumulated block by block, the centre of each row selected by a one-hot matrix product. Over the reals these agree;
   the steps that use distributivity need every input finite, and the labels must lie in [0, 4096) for the one-hot
   row to select a centre at all (outside that range the reference wraps a negative label or yields no number).
   The precondition says exactly that; `Proof/FiniteInputs.lean` reads it back as real arrays and labels in range.

   The pieces: `Proof/CenterLoss.lean` (the two sums and the loss), `Proof/CenterLossLaws.lean` (their laws over ℝ),
   `Proof/TileValue.lean` (one run of the kernel body on a block), `Proof/Blocks.lean` (what the windows' blocks hold),
   `Proof/Cases.lean`, `Proof/Accum.lean`, `Proof/Final.lean` (the running sum across the grid and the result array),
   `Proof/HostTail.lean` (the host operations after the kernel), `Proof/KernelRun.lean` (the kernel program's run as a
   value), `Proof/RefValue.lean` (the reference's result is the same loss). -/
import proofs.«419607_j26620207301028_3_alg».proof.Defs
import proofs.«419607_j26620207301028_3_alg».proof.Proof.Gen.Kernel
import proofs.«419607_j26620207301028_3_alg».proof.Proof.Gen.Kernel.Frame
import proofs.«419607_j26620207301028_3_alg».proof.Proof.Gen.KernelIdeal
import proofs.«419607_j26620207301028_3_alg».proof.Proof.Gen.KernelIdeal.Frame
import proofs.«419607_j26620207301028_3_alg».proof.Proof.Gen.ReferenceIdeal
import proofs.«419607_j26620207301028_3_alg».proof.Proof.Gen.Pre_finite_inputs
import proofs.«419607_j26620207301028_3_alg».proof.Proof.FiniteInputs
import proofs.«419607_j26620207301028_3_alg».proof.Proof.KernelRun
import proofs.«419607_j26620207301028_3_alg».proof.Proof.RefValue
import Idealize.ShloMosaic.Adequacy
import Idealize.ShloMosaic.Init

noncomputable section

namespace Cert.Proof

open Idealize.ShloMosaic Idealize.SL.Sem Idealize.ShloMosaic.ValueIdx Cert.CenterLoss

/-- The word-level kernel program terminates without a fault and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on finite features, finite centres and labels in range, both programs end at the loss of
    the same two sums. -/
theorem algebraic : Cert.algebraic_KernelIdeal_ReferenceIdeal := by
  intro m ρ m' ρ' hpre hagree
  choose fr cr lb hf hc hl using fun c => Cert.Pre_finite_inputs.Decode.reals_of_pre _ _ _ (hpre c)
  refine ⟨fun c => loss ((intra (fr c) (cr c) (lb c) : ℝ) : EReal) ((total (fr c) (cr c) : ℝ) : EReal),
    Cert.KernelIdeal.Run.run m ρ fr cr lb hf hc hl, ?_⟩
  refine (θ_run Cert.ReferenceIdeal.defs _ _).mono (fun _ h c => ⟨(h c).1.trans ?_, (h c).2⟩)
    (Cert.ReferenceIdeal.ValueP.run (F := Ideal) m' ρ')
  exact Cert.ReferenceIdeal.RefValue.ref_value m' c (fr c) (cr c) (lb c)
    (fun b d => (congrFun (hagree c).1 (ix2 b d)).trans (hf c b d))
    (fun k d => (congrFun (hagree c).2.2 (ix2 k d)).trans (hc c k d))
    (fun b => (congrFun (hagree c).2.1 (ix1 b)).trans (hl c b))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
